-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x784 : Shape := ⟨2, ![512, 784]⟩
abbrev S512x49 : Shape := ⟨2, ![512, 49]⟩
abbrev S512x16x49 : Shape := ⟨3, ![512, 16, 49]⟩
abbrev S_ : Shape := ⟨0, ![]⟩

class Facts : Prop where
  bcast_S_S512x784 : S_.BroadcastsInDim S512x784 (![] : Fin 0 → Fin S512x784.rank)
  reducesTo_S512x784_S_d0_1 : S512x784.ReducesTo [0, 1] S_
  h_S_ : 0 < S_.numel
  bcast_S_S512x16x49 : S_.BroadcastsInDim S512x16x49 (![] : Fin 0 → Fin S512x16x49.rank)
  reducesTo_S512x16x49_S_d0_1_2 : S512x16x49.ReducesTo [0, 1, 2] S_
  bcast_S_S512x49 : S_.BroadcastsInDim S512x49 (![] : Fin 0 → Fin S512x49.rank)
  reducesTo_S512x49_S_d0_1 : S512x49.ReducesTo [0, 1] S_

variable [Facts]

def fn_part1 {F : FTy → Type} [FloatOps F] (main_arg1 : IVec S512x49 32) (main_v13 : IVec S_ 1) (main_v15 : IVec S512x49 1) (main_c_5 : IVec S_ 32) : IVec S_ 1 :=
  let main_v16 : IVec S512x49 32 := broadcastInDim S512x49 ![] bcast_S_S512x49 main_c_5
  let main_v17 : IVec S512x49 1 := cmpi .slt main_arg1 main_v16
  let main_v18 : IVec S512x49 1 := andi main_v15 main_v17
  let main_c_6 : IVec S_ 1 := constantI S_ 1 1#1
  let main_v19 : IVec S_ 1 := (fun x v => Host.reduce IntOp.andi x v reducesTo_S512x49_S_d0_1 h_S_) main_v18 main_c_6
  let main_v20 : IVec S_ 1 := andi main_v13 main_v19
  main_v20

def fn {F : FTy → Type} [FloatOps F] (main_arg0 : FVec F S512x784 .f32) (main_arg1 : IVec S512x49 32) (main_arg2 : FVec F S512x16x49 .f32) (main_arg3 : FVec F S512x16x49 .f32) : IVec S_ 1 :=
  let main_v0 : FVec F S512x784 .f32 := Host.absf main_arg0
  let main_cst : FVec F S_ .f32 := constant S_ .f32 0x7F800000#32
  let main_v1 : FVec F S512x784 .f32 := broadcastInDim S512x784 ![] bcast_S_S512x784 main_cst
  let main_v2 : IVec S512x784 1 := cmpf .olt main_v0 main_v1
  let main_c : IVec S_ 1 := constantI S_ 1 1#1
  let main_v3 : IVec S_ 1 := (fun x v => Host.reduce IntOp.andi x v reducesTo_S512x784_S_d0_1 h_S_) main_v2 main_c
  let main_v4 : FVec F S512x16x49 .f32 := Host.absf main_arg2
  let main_cst_0 : FVec F S_ .f32 := constant S_ .f32 0x7F800000#32
  let main_v5 : FVec F S512x16x49 .f32 := broadcastInDim S512x16x49 ![] bcast_S_S512x16x49 main_cst_0
  let main_v6 : IVec S512x16x49 1 := cmpf .olt main_v4 main_v5
  let main_c_1 : IVec S_ 1 := constantI S_ 1 1#1
  let main_v7 : IVec S_ 1 := (fun x v => Host.reduce IntOp.andi x v reducesTo_S512x16x49_S_d0_1_2 h_S_) main_v6 main_c_1
  let main_v8 : IVec S_ 1 := andi main_v3 main_v7
  let main_v9 : FVec F S512x16x49 .f32 := Host.absf main_arg3
  let main_cst_2 : FVec F S_ .f32 := constant S_ .f32 0x7F800000#32
  let main_v10 : FVec F S512x16x49 .f32 := broadcastInDim S512x16x49 ![] bcast_S_S512x16x49 main_cst_2
  let main_v11 : IVec S512x16x49 1 := cmpf .olt main_v9 main_v10
  let main_c_3 : IVec S_ 1 := constantI S_ 1 1#1
  let main_v12 : IVec S_ 1 := (fun x v => Host.reduce IntOp.andi x v reducesTo_S512x16x49_S_d0_1_2 h_S_) main_v11 main_c_3
  let main_v13 : IVec S_ 1 := andi main_v8 main_v12
  let main_c_4 : IVec S_ 32 := constantI S_ 32 4294966512#32
  let main_v14 : IVec S512x49 32 := broadcastInDim S512x49 ![] bcast_S_S512x49 main_c_4
  let main_v15 : IVec S512x49 1 := cmpi .sge main_arg1 main_v14
  let main_c_5 : IVec S_ 32 := constantI S_ 32 784#32
  fn_part1 (F := F) main_arg1 main_v13 main_v15 main_c_5
-- ==== Kernel.lean ====
abbrev S512x784 : Shape := ⟨2, ![512, 784]⟩
abbrev S512x49 : Shape := ⟨2, ![512, 49]⟩
abbrev S512x16x49 : Shape := ⟨3, ![512, 16, 49]⟩
abbrev S784x512 : Shape := ⟨2, ![784, 512]⟩
abbrev S25088 : Shape := ⟨1, ![25088]⟩
abbrev S_ : Shape := ⟨0, ![]⟩
abbrev S25088x1 : Shape := ⟨2, ![25088, 1]⟩
abbrev S1 : Shape := ⟨1, ![1]⟩
abbrev S1x1 : Shape := ⟨2, ![1, 1]⟩
abbrev S25088x512 : Shape := ⟨2, ![25088, 512]⟩
abbrev S512x49x512 : Shape := ⟨3, ![512, 49, 512]⟩
abbrev S512x16x512 : Shape := ⟨3, ![512, 16, 512]⟩
abbrev S64x49x256 : Shape := ⟨3, ![64, 49, 256]⟩
abbrev S64x16x49 : Shape := ⟨3, ![64, 16, 49]⟩
abbrev S64x16x256 : Shape := ⟨3, ![64, 16, 256]⟩
abbrev S64x1x49 : Shape := ⟨3, ![64, 1, 49]⟩
abbrev S64x49 : Shape := ⟨2, ![64, 49]⟩
abbrev S64x49x1 : Shape := ⟨3, ![64, 49, 1]⟩
abbrev S64x256 : Shape := ⟨2, ![64, 256]⟩
abbrev S64x1x256 : Shape := ⟨3, ![64, 1, 256]⟩
abbrev S512x512x16 : Shape := ⟨3, ![512, 512, 16]⟩

abbrev nBuf : Space → Nat
  | .hbm => 32
  | .vmem => 8
  | .smem => 0
  | _ => 0

abbrev bufTy : (tb : Table) → Fin (tcTables nBuf tb) → BufTy
  | .hbm, ⟨0, _⟩ => ⟨S512x784, .f32⟩
  | .hbm, ⟨1, _⟩ => ⟨S512x49, .i32⟩
  | .hbm, ⟨2, _⟩ => ⟨S512x16x49, .f32⟩
  | .hbm, ⟨3, _⟩ => ⟨S512x16x49, .f32⟩
  | .hbm, ⟨4, _⟩ => ⟨S784x512, .f32⟩
  | .hbm, ⟨5, _⟩ => ⟨S25088, .i32⟩
  | .hbm, ⟨6, _⟩ => ⟨S_, .i32⟩
  | .hbm, ⟨7, _⟩ => ⟨S25088, .i32⟩
  | .hbm, ⟨8, _⟩ => ⟨S25088, .i1⟩
  | .hbm, ⟨9, _⟩ => ⟨S_, .i32⟩
  | .hbm, ⟨10, _⟩ => ⟨S25088, .i32⟩
  | .hbm, ⟨11, _⟩ => ⟨S25088, .i32⟩
  | .hbm, ⟨12, _⟩ => ⟨S25088, .i32⟩
  | .hbm, ⟨13, _⟩ => ⟨S25088x1, .i32⟩
  | .hbm, ⟨14, _⟩ => ⟨S1, .i32⟩
  | .hbm, ⟨15, _⟩ => ⟨S_, .i32⟩
  | .hbm, ⟨16, _⟩ => ⟨S25088x1, .i32⟩
  | .hbm, ⟨17, _⟩ => ⟨S25088x1, .i1⟩
  | .hbm, ⟨18, _⟩ => ⟨S1x1, .i32⟩
  | .hbm, ⟨19, _⟩ => ⟨S25088x1, .i32⟩
  | .hbm, ⟨20, _⟩ => ⟨S25088x1, .i1⟩
  | .hbm, ⟨21, _⟩ => ⟨S25088x1, .i1⟩
  | .hbm, ⟨22, _⟩ => ⟨S_, .i1⟩
  | .hbm, ⟨23, _⟩ => ⟨S25088, .i1⟩
  | .hbm, ⟨24, _⟩ => ⟨S25088x512, .f32⟩
  | .hbm, ⟨25, _⟩ => ⟨S25088x512, .i1⟩
  | .hbm, ⟨26, _⟩ => ⟨S_, .f32⟩
  | .hbm, ⟨27, _⟩ => ⟨S25088x512, .f32⟩
  | .hbm, ⟨28, _⟩ => ⟨S25088x512, .f32⟩
  | .hbm, ⟨29, _⟩ => ⟨S512x49x512, .f32⟩
  | .hbm, ⟨30, _⟩ => ⟨S512x16x512, .f32⟩
  | .hbm, ⟨31, _⟩ => ⟨S512x512x16, .f32⟩
  | .local _ .vmem, ⟨0, _⟩ => ⟨S64x49x256, .f32⟩
  | .local _ .vmem, ⟨1, _⟩ => ⟨S64x49x256, .f32⟩
  | .local _ .vmem, ⟨2, _⟩ => ⟨S64x16x49, .f32⟩
  | .local _ .vmem, ⟨3, _⟩ => ⟨S64x16x49, .f32⟩
  | .local _ .vmem, ⟨4, _⟩ => ⟨S64x16x49, .f32⟩
  | .local _ .vmem, ⟨5, _⟩ => ⟨S64x16x49, .f32⟩
  | .local _ .vmem, ⟨6, _⟩ => ⟨S64x16x256, .f32⟩
  | .local _ .vmem, ⟨7, _⟩ => ⟨S64x16x256, .f32⟩
  | _, _ => ⟨S512x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S64x49x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x16x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x16x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S512x784_S784x512_1_0 : S512x784.Transposes [1, 0] S784x512
  shapeCasts_S512x49_S25088 : S512x49.ShapeCasts S25088
  bcast_S_S25088 : S_.BroadcastsInDim S25088 (![] : Fin 0 → Fin S25088.rank)
  bcast_S25088_S25088x1_0 : S25088.BroadcastsInDim S25088x1 (![0] : Fin 1 → Fin S25088x1.rank)
  bcast_S_S25088x1 : S_.BroadcastsInDim S25088x1 (![] : Fin 0 → Fin S25088x1.rank)
  bcast_S1_S1x1_1 : S1.BroadcastsInDim S1x1 (![1] : Fin 1 → Fin S1x1.rank)
  bcast_S1x1_S25088x1_0_1 : S1x1.BroadcastsInDim S25088x1 (![0, 1] : Fin 2 → Fin S25088x1.rank)
  reducesTo_S25088x1_S25088_d1 : S25088x1.ReducesTo [1] S25088
  h_S_ : 0 < S_.numel
  bcast_S25088_S25088x512_0 : S25088.BroadcastsInDim S25088x512 (![0] : Fin 1 → Fin S25088x512.rank)
  bcast_S_S25088x512 : S_.BroadcastsInDim S25088x512 (![] : Fin 0 → Fin S25088x512.rank)
  shapeCasts_S25088x512_S512x49x512 : S25088x512.ShapeCasts S512x49x512
  inb_S64x16x49_S64x16x49_0_0_0 : ∀ a, (![0, 0, 0] : Fin 3 → Nat) a + S64x16x49.size a ≤ S64x16x49.size a
  h_S64x16x49 : 0 < S64x16x49.numel
  inb_S64x49x256_S64x49x256_0_0_0 : ∀ a, (![0, 0, 0] : Fin 3 → Nat) a + S64x49x256.size a ≤ S64x49x256.size a
  h_S64x49x256 : 0 < S64x49x256.numel
  shapeCasts_S64x49x256_S64x49x256 : S64x49x256.ShapeCasts S64x49x256
  inb_S64x16x49_S64x1x49_0_0_0 : ∀ a, (![0, 0, 0] : Fin 3 → Nat) a + S64x1x49.size a ≤ S64x16x49.size a
  h_S64x1x49 : 0 < S64x1x49.numel
  shapeCasts_S64x1x49_S64x49 : S64x1x49.ShapeCasts S64x49
  slices_S64x16x49_o0_0_0_S64x1x49 : S64x16x49.Slices ![0, 0, 0] S64x1x49
  shapeCasts_S64x49_S64x49x1 : S64x49.ShapeCasts S64x49x1
  broadcasts_S64x49x1_S64x49x256 : S64x49x1.Broadcasts S64x49x256
  reduces_S64x49x256_S64x256 : S64x49x256.Reduces [1] S64x256
  inb_S64x16x49_S64x1x49_0_1_0 : ∀ a, (![0, 1, 0] : Fin 3 → Nat) a + S64x1x49.size a ≤ S64x16x49.size a
  slices_S64x16x49_o0_1_0_S64x1x49 : S64x16x49.Slices ![0, 1, 0] S64x1x49
  inb_S64x16x49_S64x1x49_0_2_0 : ∀ a, (![0, 2, 0] : Fin 3 → Nat) a + S64x1x49.size a ≤ S64x16x49.size a
  slices_S64x16x49_o0_2_0_S64x1x49 : S64x16x49.Slices ![0, 2, 0] S64x1x49
  inb_S64x16x49_S64x1x49_0_3_0 : ∀ a, (![0, 3, 0] : Fin 3 → Nat) a + S64x1x49.size a ≤ S64x16x49.size a
  slices_S64x16x49_o0_3_0_S64x1x49 : S64x16x49.Slices ![0, 3, 0] S64x1x49
  inb_S64x16x49_S64x1x49_0_4_0 : ∀ a, (![0, 4, 0] : Fin 3 → Nat) a + S64x1x49.size a ≤ S64x16x49.size a
  slices_S64x16x49_o0_4_0_S64x1x49 : S64x16x49.Slices ![0, 4, 0] S64x1x49
  inb_S64x16x49_S64x1x49_0_5_0 : ∀ a, (![0, 5, 0] : Fin 3 → Nat) a + S64x1x49.size a ≤ S64x16x49.size a
  slices_S64x16x49_o0_5_0_S64x1x49 : S64x16x49.Slices ![0, 5, 0] S64x1x49
  inb_S64x16x49_S64x1x49_0_6_0 : ∀ a, (![0, 6, 0] : Fin 3 → Nat) a + S64x1x49.size a ≤ S64x16x49.size a
  slices_S64x16x49_o0_6_0_S64x1x49 : S64x16x49.Slices ![0, 6, 0] S64x1x49
  inb_S64x16x49_S64x1x49_0_7_0 : ∀ a, (![0, 7, 0] : Fin 3 → Nat) a + S64x1x49.size a ≤ S64x16x49.size a
  slices_S64x16x49_o0_7_0_S64x1x49 : S64x16x49.Slices ![0, 7, 0] S64x1x49
  inb_S64x16x49_S64x1x49_0_8_0 : ∀ a, (![0, 8, 0] : Fin 3 → Nat) a + S64x1x49.size a ≤ S64x16x49.size a
  slices_S64x16x49_o0_8_0_S64x1x49 : S64x16x49.Slices ![0, 8, 0] S64x1x49
  inb_S64x16x49_S64x1x49_0_9_0 : ∀ a, (![0, 9, 0] : Fin 3 → Nat) a + S64x1x49.size a ≤ S64x16x49.size a
  slices_S64x16x49_o0_9_0_S64x1x49 : S64x16x49.Slices ![0, 9, 0] S64x1x49
  inb_S64x16x49_S64x1x49_0_10_0 : ∀ a, (![0, 10, 0] : Fin 3 → Nat) a + S64x1x49.size a ≤ S64x16x49.size a
  slices_S64x16x49_o0_10_0_S64x1x49 : S64x16x49.Slices ![0, 10, 0] S64x1x49
  inb_S64x16x49_S64x1x49_0_11_0 : ∀ a, (![0, 11, 0] : Fin 3 → Nat) a + S64x1x49.size a ≤ S64x16x49.size a
  slices_S64x16x49_o0_11_0_S64x1x49 : S64x16x49.Slices ![0, 11, 0] S64x1x49
  inb_S64x16x49_S64x1x49_0_12_0 : ∀ a, (![0, 12, 0] : Fin 3 → Nat) a + S64x1x49.size a ≤ S64x16x49.size a
  slices_S64x16x49_o0_12_0_S64x1x49 : S64x16x49.Slices ![0, 12, 0] S64x1x49
  inb_S64x16x49_S64x1x49_0_13_0 : ∀ a, (![0, 13, 0] : Fin 3 → Nat) a + S64x1x49.size a ≤ S64x16x49.size a
  slices_S64x16x49_o0_13_0_S64x1x49 : S64x16x49.Slices ![0, 13, 0] S64x1x49
  inb_S64x16x49_S64x1x49_0_14_0 : ∀ a, (![0, 14, 0] : Fin 3 → Nat) a + S64x1x49.size a ≤ S64x16x49.size a
  slices_S64x16x49_o0_14_0_S64x1x49 : S64x16x49.Slices ![0, 14, 0] S64x1x49
  inb_S64x16x49_S64x1x49_0_15_0 : ∀ a, (![0, 15, 0] : Fin 3 → Nat) a + S64x1x49.size a ≤ S64x16x49.size a
  slices_S64x16x49_o0_15_0_S64x1x49 : S64x16x49.Slices ![0, 15, 0] S64x1x49
  shapeCasts_S64x256_S64x1x256 : S64x256.ShapeCasts S64x1x256
  concatenates_S64x1x256_S64x1x256_S64x1x256_S64x1x256_S64x1x256_S64x1x256_S64x1x256_S64x1x256_S64x1x256_S64x1x256_S64x1x256_S64x1x256_S64x1x256_S64x1x256_S64x1x256_S64x1x256_S64x16x256_d1 : Shape.Concatenates [S64x1x256, S64x1x256, S64x1x256, S64x1x256, S64x1x256, S64x1x256, S64x1x256, S64x1x256, S64x1x256, S64x1x256, S64x1x256, S64x1x256, S64x1x256, S64x1x256, S64x1x256, S64x1x256] S64x16x256 1
  inb_S64x16x256_S64x16x256_0_0_0 : ∀ a, (![0, 0, 0] : Fin 3 → Nat) a + S64x16x256.size a ≤ S64x16x256.size a
  h_S64x16x256 : 0 < S64x16x256.numel
  transposes_S512x16x512_S512x512x16_2_0_1 : S512x16x512.Transposes [2, 0, 1] S512x512x16
  gather_S784x512_S25088x1_S25088x512_1_0_n_n_0_1_1512_wf : GatherDims.WF S784x512 S25088x1 S25088x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x49x256.size a ≤ S512x49x512.size a
  hwx0_0 : ∀ i : grid0.Coords, EltTy.bits .f32 = 32 ∨ (Rect.block (s := S512x49x512) S64x49x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16x49.size a ≤ S512x16x49.size a
  hwx0_1 : ∀ i : grid0.Coords, EltTy.bits .f32 = 32 ∨ (Rect.block (s := S512x16x49) S64x16x49.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16x49.size a ≤ S512x16x49.size a
  hwx0_2 : ∀ i : grid0.Coords, EltTy.bits .f32 = 32 ∨ (Rect.block (s := S512x16x49) S64x16x49.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16x256.size a ≤ S512x16x512.size a
  hwx0_3 : ∀ i : grid0.Coords, EltTy.bits .f32 = 32 ∨ (Rect.block (s := S512x16x512) S64x16x256.size (cc0_transform_3 i) (hinb0_3 i)).WholeWords (EltTy.packing .f32)

variable [Facts₀]

def gather_S784x512_S25088x1_S25088x512_1_0_n_n_0_1_1512 : GatherDims S784x512 S25088x1 S25088x512 where
  offsetDims := [1]
  collapsedSliceDims := [0]
  operandBatchingDims := []
  startIndicesBatchingDims := []
  startIndexMap := [0]
  indexVectorDim := 1
  sliceSizes := ![1, 512]
  wf := gather_S784x512_S25088x1_S25088x512_1_0_n_n_0_1_1512_wf

abbrev win0_0 : Pipeline.Window sig grid0 :=
  Pipeline.Window.ofSpec (Memref.whole main_v3) S64x49x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x16x49.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x16x49.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x784 : Shape := ⟨2, ![512, 784]⟩
abbrev S512x49 : Shape := ⟨2, ![512, 49]⟩
abbrev S512x16x49 : Shape := ⟨3, ![512, 16, 49]⟩
abbrev S_ : Shape := ⟨0, ![]⟩
abbrev S512x49x1 : Shape := ⟨3, ![512, 49, 1]⟩
abbrev S512x512x49 : Shape := ⟨3, ![512, 512, 49]⟩
abbrev S512x512x1x49 : Shape := ⟨4, ![512, 512, 1, 49]⟩
abbrev S1x512x16x49 : Shape := ⟨4, ![1, 512, 16, 49]⟩
abbrev S512x512x16x49 : Shape := ⟨4, ![512, 512, 16, 49]⟩
abbrev S512x512x16 : Shape := ⟨3, ![512, 512, 16]⟩

abbrev nBuf : Space → Nat
  | .hbm => 38
  | .vmem => 0
  | .smem => 0
  | _ => 0

abbrev bufTy : (tb : Table) → Fin (tcTables nBuf tb) → BufTy
  | .hbm, ⟨0, _⟩ => ⟨S512x784, .f32⟩
  | .hbm, ⟨1, _⟩ => ⟨S512x49, .i32⟩
  | .hbm, ⟨2, _⟩ => ⟨S512x16x49, .f32⟩
  | .hbm, ⟨3, _⟩ => ⟨S512x16x49, .f32⟩
  | .hbm, ⟨4, _⟩ => ⟨S_, .i32⟩
  | .hbm, ⟨5, _⟩ => ⟨S512x49, .i32⟩
  | .hbm, ⟨6, _⟩ => ⟨S512x49, .i1⟩
  | .hbm, ⟨7, _⟩ => ⟨S_, .i32⟩
  | .hbm, ⟨8, _⟩ => ⟨S512x49, .i32⟩
  | .hbm, ⟨9, _⟩ => ⟨S512x49, .i32⟩
  | .hbm, ⟨10, _⟩ => ⟨S512x49, .i32⟩
  | .hbm, ⟨11, _⟩ => ⟨S512x49x1, .i32⟩
  | .hbm, ⟨12, _⟩ => ⟨S512x512x49, .f32⟩
  | .hbm, ⟨13, _⟩ => ⟨S512x512x1x49, .f32⟩
  | .hbm, ⟨14, _⟩ => ⟨S1x512x16x49, .f32⟩
  | .hbm, ⟨15, _⟩ => ⟨S512x512x16x49, .f32⟩
  | .hbm, ⟨16, _⟩ => ⟨S512x512x16x49, .f32⟩
  | .hbm, ⟨17, _⟩ => ⟨S512x512x16x49, .f32⟩
  | .hbm, ⟨18, _⟩ => ⟨S1x512x16x49, .f32⟩
  | .hbm, ⟨19, _⟩ => ⟨S512x512x16x49, .f32⟩
  | .hbm, ⟨20, _⟩ => ⟨S512x512x16x49, .f32⟩
  | .hbm, ⟨21, _⟩ => ⟨S_, .f32⟩
  | .hbm, ⟨22, _⟩ => ⟨S512x512x16x49, .f32⟩
  | .hbm, ⟨23, _⟩ => ⟨S512x512x16x49, .f32⟩
  | .hbm, ⟨24, _⟩ => ⟨S512x512x16x49, .f32⟩
  | .hbm, ⟨25, _⟩ => ⟨S512x16x49, .f32⟩
  | .hbm, ⟨26, _⟩ => ⟨S1x512x16x49, .f32⟩
  | .hbm, ⟨27, _⟩ => ⟨S512x512x16x49, .f32⟩
  | .hbm, ⟨28, _⟩ => ⟨S512x512x16x49, .f32⟩
  | .hbm, ⟨29, _⟩ => ⟨S_, .f32⟩
  | .hbm, ⟨30, _⟩ => ⟨S512x512x16x49, .f32⟩
  | .hbm, ⟨31, _⟩ => ⟨S512x512x16x49, .f32⟩
  | .hbm, ⟨32, _⟩ => ⟨S512x512x16x49, .i1⟩
  | .hbm, ⟨33, _⟩ => ⟨S_, .f32⟩
  | .hbm, ⟨34, _⟩ => ⟨S512x512x16x49, .f32⟩
  | .hbm, ⟨35, _⟩ => ⟨S512x512x16x49, .f32⟩
  | .hbm, ⟨36, _⟩ => ⟨S_, .f32⟩
  | .hbm, ⟨37, _⟩ => ⟨S512x512x16, .f32⟩
  | _, _ => ⟨S512x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_call0_v0 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S512x49 : S_.BroadcastsInDim S512x49 (![] : Fin 0 → Fin S512x49.rank)
  bcast_S512x49_S512x49x1_0_1 : S512x49.BroadcastsInDim S512x49x1 (![0, 1] : Fin 2 → Fin S512x49x1.rank)
  bcast_S512x512x49_S512x512x1x49_0_1_3 : S512x512x49.BroadcastsInDim S512x512x1x49 (![0, 1, 3] : Fin 3 → Fin S512x512x1x49.rank)
  bcast_S512x16x49_S1x512x16x49_1_2_3 : S512x16x49.BroadcastsInDim S1x512x16x49 (![1, 2, 3] : Fin 3 → Fin S1x512x16x49.rank)
  bcast_S512x512x1x49_S512x512x16x49_0_1_2_3 : S512x512x1x49.BroadcastsInDim S512x512x16x49 (![0, 1, 2, 3] : Fin 4 → Fin S512x512x16x49.rank)
  bcast_S1x512x16x49_S512x512x16x49_0_1_2_3 : S1x512x16x49.BroadcastsInDim S512x512x16x49 (![0, 1, 2, 3] : Fin 4 → Fin S512x512x16x49.rank)
  bcast_S_S512x512x16x49 : S_.BroadcastsInDim S512x512x16x49 (![] : Fin 0 → Fin S512x512x16x49.rank)
  reducesTo_S512x512x16x49_S512x512x16_d3 : S512x512x16x49.ReducesTo [3] S512x512x16
  h_S_ : 0 < S_.numel
  gather_S512x784_S512x49x1_S512x512x49_0_1_n_n_1_2_5121_wf : GatherDims.WF S512x784 S512x49x1 S512x512x49 [0] [1] [] [1] [] 2 ![512, 1]

variable [Facts₀]

def gather_S512x784_S512x49x1_S512x512x49_0_1_n_n_1_2_5121 : GatherDims S512x784 S512x49x1 S512x512x49 where
  offsetDims := [0]
  collapsedSliceDims := [1]
  operandBatchingDims := []
  startIndicesBatchingDims := []
  startIndexMap := [1]
  indexVectorDim := 2
  sliceSizes := ![512, 1]
  wf := gather_S512x784_S512x49x1_S512x512x49_0_1_n_n_1_2_5121_wf

class Facts : Prop extends Facts₀ where

variable [Facts]
-- ==== Proof.Spec.lean ====
/-
  The mathematics both programs compute, stated once over plain extended reals and 32-bit words.

  For a batch row `b`, a region `r` and a channel `c` the result is the sum over the region's 49 features `d` of the
  Gaussian log-density of `x[b, mask[r, d]]` under mean `loc[r, c, d]` and deviation `scale[r, c, d]`:
  `-½ z² - log s - ½ log 2π` with `z = (x - l) / s`. The two programs group the three summands differently
  (`q + ((0 - log s) - h)` against `(q - log s) - h`); on the extended reals addition is associative and
  commutative and `a - b` is `a + -b`, so the two groupings agree at every value, infinite ones included.
  Both programs guard the term by "is it different from itself", which no extended real is.
  The column read is `mask[r, d]` wrapped once when negative and then held inside `[0, 783]`; for a mask entry in
  `[-784, 784)` the wrapped word already lies in `[0, 783]`.
-/
import Idealize.ShloMosaic.PureOps.Ideal
import Idealize.ShloMosaic.PureOps.Ideal.Laws
import Idealize.ShloMosaic.Lib.ValueIdx

noncomputable section

open scoped BigOperators

namespace Cert.Gauss

open Idealize.ShloMosaic Idealize.ShloMosaic.ValueIdx

/-- `½ log 2π` as the binary fraction both programs carry. -/
def hc : EReal := Ideal.ofBits .f32 0x3F6B3F8E#32
/-- `-½`, likewise. -/
def nh : EReal := Ideal.ofBits .f32 0xBF000000#32

/-- The standardized feature `(x - l) / s`. -/
def std (x l s : EReal) : EReal := Ideal.div (x - l) s
/-- The quadratic part `(-½ · z) · z`. -/
def quad (x l s : EReal) : EReal := nh * std x l s * std x l s
/-- One feature's term, grouped as `q + ((0 - log s) - h)`. -/
def termK (x l s : EReal) : EReal := quad x l s + ((Ideal.ofBits .f32 0x00000000#32 - Ideal.log s) - hc)
/-- One feature's term, grouped as `(q - log s) - h`. -/
def termR (x l s : EReal) : EReal := (quad x l s - Ideal.log s) - hc

/-- The two groupings are one extended real: `0 - a = -a`, subtraction adds the negative, addition is associative. -/
theorem termK_eq_termR (x l s : EReal) : termK x l s = termR x l s := by
  unfold termK termR
  rw [Ideal.ofBits_zero_f32, zero_sub, sub_eq_add_neg, sub_eq_add_neg (quad x l s), sub_eq_add_neg (quad x l s + _),
    add_assoc]

/-- No extended real differs from itself, so a select on "v ≠ v" keeps `v` (ordered spelling). -/
theorem guard_one (v z : EReal) : Scalar.select (Ideal.cmp .one v v) z v = v := by
  have : Ideal.cmp .one v v = 0#1 := by simp [Ideal.cmp]
  rw [this, select_zero]
/-- The same for the unordered spelling. -/
theorem guard_une (v z : EReal) : Scalar.select (Ideal.cmp .une v v) z v = v := by
  have : Ideal.cmp .une v v = 0#1 := by simp [Ideal.cmp]
  rw [this, select_zero]

/-- A column word wrapped once: a negative word has the row length 784 added. -/
def wrap (w : BitVec 32) : BitVec 32 := Scalar.select (IntOp.cmpi .slt w 0#32) (IntOp.addi w 784#32) w
/-- The admitted column words: those NumPy indexing of an axis of length 784 defines. -/
def InRange (w : BitVec 32) : Prop := -784 ≤ w.toInt ∧ w.toInt < 784

/-- A word is wrapped exactly when it is negative as a signed integer. -/
theorem wrap_cases (w : BitVec 32) : (w.toInt < 0 ∧ wrap w = w + 784#32) ∨ (0 ≤ w.toInt ∧ wrap w = w) := by
  unfold wrap Scalar.select IntOp.cmpi IntOp.addi
  by_cases hs : w.slt 0#32 = true
  · left
    refine ⟨by simpa [BitVec.slt_iff_toInt_lt] using hs, ?_⟩
    simp [hs]
  · right
    have hs' : w.slt 0#32 = false := by simpa using hs
    refine ⟨by
      have := hs
      rw [BitVec.slt_iff_toInt_lt] at this
      simpa using this, ?_⟩
    simp [hs']

/-- An admitted word wraps into `[0, 783]`: a negative one is at least `-784`, so adding 784 neither overflows nor
    leaves `[0, 783]`; a non-negative one is below 784 as it stands. -/
theorem wrap_toInt {w : BitVec 32} (h : InRange w) : 0 ≤ (wrap w).toInt ∧ (wrap w).toInt ≤ 783 := by
  obtain ⟨h1, h2⟩ := h
  rcases wrap_cases w with ⟨hn, he⟩ | ⟨hp, he⟩
  · rw [he, BitVec.toInt_add]
    have : (784#32 : BitVec 32).toInt = 784 := by decide
    rw [this]
    have hb : (w.toInt + 784).bmod (2^32) = w.toInt + 784 := by
      apply Int.bmod_eq_of_le <;> omega
    rw [hb]; omega
  · rw [he]; omega

/-- So the signed test "at least 0" passes on it … -/
theorem wrap_sge {w : BitVec 32} (h : InRange w) : IntOp.cmpi .sge (wrap w) 0#32 = 1#1 := by
  have h0 := (wrap_toInt h).1
  unfold IntOp.cmpi
  have : (0#32 : BitVec 32).sle (wrap w) = true := by
    rw [BitVec.sle_iff_toInt_le]; simpa using h0
  simp [this]
/-- … and so does "at most 783". -/
theorem wrap_sle {w : BitVec 32} (h : InRange w) : IntOp.cmpi .sle (wrap w) 783#32 = 1#1 := by
  have h1 := (wrap_toInt h).2
  unfold IntOp.cmpi
  have h783 : (783#32 : BitVec 32).toInt = 783 := by decide
  have : (wrap w).sle 783#32 = true := by
    rw [BitVec.sle_iff_toInt_le, h783]; exact h1
  simp [this]

/-- The column a word reads: its wrapped value held inside `[0, 783]`. -/
def col (w : BitVec 32) : Fin 784 := ⟨min (wrap w).toInt.toNat 783, by omega⟩

/-- THE RESULT at batch row `b`, region `r`, channel `c`. -/
def G (x : (⟨2, ![512, 784]⟩ : Shape).Idx → EReal) (mask : (⟨2, ![512, 49]⟩ : Shape).Idx → BitVec 32)
    (loc scale : (⟨3, ![512, 16, 49]⟩ : Shape).Idx → EReal) (b r : Fin 512) (c : Fin 16) : EReal :=
  ∑ d : Fin 49, termR (x (ix2 b (col (mask (ix2 r d))))) (loc (ix3 r c d)) (scale (ix3 r c d))

end Cert.Gauss

end
-- ==== Proof.PreMask.lean ====
import proofs.«422789_j77120432767510_3_alg».proof.Pre_finite_inputs
import proofs.«422789_j77120432767510_3_alg».proof.Proof.Spec
import Idealize.ShloMosaic.Lib.StableHlo.Predicate
import Idealize.ShloMosaic.Lib.ReduceAll
import Idealize.ShloMosaic.Lib.ValueIdx

noncomputable section

namespace Cert.Pre_finite_inputs.Mask

open Cert.Pre_finite_inputs Idealize.ShloMosaic Idealize.ShloMosaic.ValueIdx

variable [Facts]

/-- THE PRECONDITION READ AT THE MASK: if the printed predicate is all ones then every mask word is admitted,
    `-784 ≤ mask[r, d] < 784` as signed integers (its last conjunct, an all-reduce of the two signed compares). -/
theorem mask_inrange {F : FTy → Type} [FloatOps F] (x0 : FVec F S512x784 .f32) (x1 : IVec S512x49 32)
    (x2 x3 : FVec F S512x16x49 .f32) (h : fn (F := F) x0 x1 x2 x3 = fun _ => 1#1) (r : Fin 512) (d : Fin 49) :
    Cert.Gauss.InRange (x1 (ix2 r d)) := by
  -- The predicate has one word; it is the `and` of the three finiteness words with the all-reduce of the mask's compares.
  have h0 : fn (F := F) x0 x1 x2 x3 ix0 = 1#1 := congrFun h ix0
  have hr := (IntOp.andi_eq_one.1 h0).2
  -- A reduction by `and` over every axis that came out 1 met a 1 at every element, in particular at (r, d).
  haveI : Subsingleton S_.Idx := ⟨fun a b => funext fun k => k.elim0⟩
  have he := Host.reduce_andi_all _ _ _ _ _ hr (ix2 r d)
  -- At (r, d) the element is the `and` of two signed compares of the mask word with the broadcast literals,
  -- and a scalar broadcast reads its literal at every index.
  have he' : IntOp.andi (IntOp.cmpi .sge (x1 (ix2 r d)) 4294966512#32) (IntOp.cmpi .slt (x1 (ix2 r d)) 784#32) = 1#1 := he
  obtain ⟨hge, hlt⟩ := IntOp.andi_eq_one.1 he'
  -- A signed compare that is 1 orders the signed readings; the literal 2³² - 784 reads -784.
  rw [IntOp.cmpi_sge] at hge
  rw [IntOp.cmpi_slt] at hlt
  have hm : (4294966512#32 : BitVec 32).toInt = -784 := by decide
  have hp : (784#32 : BitVec 32).toInt = 784 := by decide
  rw [hm] at hge
  rw [hp] at hlt
  exact ⟨hge, hlt⟩

end Cert.Pre_finite_inputs.Mask

end
-- ==== Proof.RefValue.lean ====
import proofs.«422789_j77120432767510_3_alg».proof.Proof.Gen.ReferenceIdeal.Read
import proofs.«422789_j77120432767510_3_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-- The gather's dimension numbers: operand [512, 784], start indices [512, 49, 1], result [512, 512, 49]; the result's
    axis 0 is the one offset axis (it runs over the operand's whole axis 0), the operand's axis 1 is collapsed and is the
    one axis the start index names. -/
private abbrev gd : GatherDims S512x784 S512x49x1 S512x512x49 := gather_S512x784_S512x49x1_S512x512x49_0_1_n_n_1_2_5121

/-- THE GATHER READ AT (b, r, d): row b of the operand (the offset coordinate, on the axis the start index does not
    name) at the column the start index idx[r, d, 0] gives, read signed and clamped into [0, 784 − 1]. -/
private theorem gather_apply {α : Type} {w : Nat} (x0 : S512x784.Idx → α) (idx : IVec S512x49x1 w) (b r : Fin 512) (d : Fin 49) :
    Host.gather gather_S512x784_S512x49x1_S512x512x49_0_1_n_n_1_2_5121 x0 idx (ix3 b r d)
      = x0 (ix2 b ⟨min (idx (ix3 r d (0 : Fin 1))).toInt.toNat 783, by omega⟩) := by
  unfold Host.gather
  congr 1
  funext a
  refine Fin.ext ?_
  match a with
  | ⟨0, _⟩ =>
    show gd.start (ix3 b r d) idx (0 : Fin 2) + gd.batchCoord (ix3 b r d) (0 : Fin 2) + gd.offCoord (ix3 b r d) (0 : Fin 2) = b.val
    have h1 : gd.start (ix3 b r d) idx (0 : Fin 2) = 0 := by
      unfold GatherDims.start
      exact dif_neg (by decide)
    have h2 : gd.batchCoord (ix3 b r d) (0 : Fin 2) = 0 := GatherDims.batchCoord_eq_zero _ _ _ List.not_mem_nil
    have h3 : gd.offCoord (ix3 b r d) (0 : Fin 2) = b.val := by
      unfold GatherDims.offCoord
      rw [dif_pos (by decide)]
      rfl
    rw [h1, h2, h3, Nat.add_zero, Nat.zero_add]
  | ⟨1, _⟩ =>
    show gd.start (ix3 b r d) idx (1 : Fin 2) + gd.batchCoord (ix3 b r d) (1 : Fin 2) + gd.offCoord (ix3 b r d) (1 : Fin 2)
      = min (idx (ix3 r d (0 : Fin 1))).toInt.toNat 783
    have h2 : gd.batchCoord (ix3 b r d) (1 : Fin 2) = 0 := GatherDims.batchCoord_eq_zero _ _ _ List.not_mem_nil
    have h3 : gd.offCoord (ix3 b r d) (1 : Fin 2) = 0 :=
      GatherDims.offCoord_eq_zero _ _ _ (fun h => ((GatherDims.mem_sKept _ _).mp h).1 (List.mem_singleton.mpr rfl))
    rw [h2, h3, Nat.add_zero]
    unfold GatherDims.start
    rw [dif_pos (show (1 : Fin 2) ∈ gd.startIndexMap from List.mem_singleton.mpr rfl)]
    have hsi : gd.siIdx (ix3 b r d) ⟨List.idxOf (1 : Fin 2) gd.startIndexMap,
        List.idxOf_lt_length_iff.2 (List.mem_singleton.mpr rfl)⟩ = ix3 r d (0 : Fin 1) := by
      funext q; refine Fin.ext ?_
      match q with
      | ⟨0, _⟩ => rfl
      | ⟨1, _⟩ => rfl
      | ⟨2, _⟩ => rfl
    rw [hsi]
    rfl

section Stages
variable (x0 : (⟨S512x784, .f32⟩ : BufTy).Contents (Elt Ideal)) (x1 : (⟨S512x49, .i32⟩ : BufTy).Contents (Elt Ideal))
  (x2 x3 : (⟨S512x16x49, .f32⟩ : BufTy).Contents (Elt Ideal)) (b r : Fin 512) (c : Fin 16) (d : Fin 49)

/-- The start index at (r, d, 0) is the mask word at (r, d) wrapped once. -/
private theorem v5_at : val_main_v5 (F := Ideal) x1 (ix3 r d (0 : Fin 1)) = Cert.Gauss.wrap (x1 (ix2 r d)) := by
  rw [val_main_v5_apply]
  have e : idx_main_v5 (ix3 r d (0 : Fin 1)) = ix2 r d :=
    funext fun a => Fin.ext (by match a with | ⟨0, _⟩ => rfl | ⟨1, _⟩ => rfl)
  rw [e, val_main_v4_apply, val_main_v1_apply, val_main_v3_apply, val_main_v0_apply, val_main_v2_apply,
    val_main_c_apply, val_main_c_0_apply]
  rfl

/-- The gathered element at (b, r, d) is x at row b and the mask word's column. -/
private theorem v6_at : val_main_v6 (F := Ideal) x0 x1 (ix3 b r d) = x0 (ix2 b (Cert.Gauss.col (x1 (ix2 r d)))) := by
  unfold val_main_v6
  refine (gather_apply x0 (val_main_v5 (F := Ideal) x1) b r d).trans ?_
  refine congrArg (fun k => x0 (ix2 b k)) (Fin.ext ?_)
  show min (val_main_v5 (F := Ideal) x1 (ix3 r d (0 : Fin 1))).toInt.toNat 783
    = min (Cert.Gauss.wrap (x1 (ix2 r d))).toInt.toNat 783
  rw [v5_at]

/-- Broadcast over the channel axis: the minuend at (b, r, c, d) is the gathered element at (b, r, d). -/
private theorem v9_at : val_main_v9 (F := Ideal) x0 x1 (ix4 b r c d) = x0 (ix2 b (Cert.Gauss.col (x1 (ix2 r d)))) := by
  rw [val_main_v9_apply, val_main_v7_apply]
  have e : idx_main_v7 (idx_main_v9 (ix4 b r c d)) = ix3 b r d :=
    funext fun a => Fin.ext (by match a with | ⟨0, _⟩ => rfl | ⟨1, _⟩ => rfl | ⟨2, _⟩ => rfl)
  rw [e, v6_at]

/-- Broadcast over the batch axis: the mean at (b, r, c, d) is loc at (r, c, d). -/
private theorem v10_at : val_main_v10 (F := Ideal) x2 (ix4 b r c d) = x2 (ix3 r c d) := by
  rw [val_main_v10_apply, val_main_v8_apply]
  exact congrArg x2 (funext fun a => Fin.ext (by match a with | ⟨0, _⟩ => rfl | ⟨1, _⟩ => rfl | ⟨2, _⟩ => rfl))

/-- Likewise the deviation at (b, r, c, d) is scale at (r, c, d). -/
private theorem v13_at : val_main_v13 (F := Ideal) x3 (ix4 b r c d) = x3 (ix3 r c d) := by
  rw [val_main_v13_apply, val_main_v12_apply]
  exact congrArg x3 (funext fun a => Fin.ext (by match a with | ⟨0, _⟩ => rfl | ⟨1, _⟩ => rfl | ⟨2, _⟩ => rfl))

/-- And its logarithm, taken before the broadcast. -/
private theorem v20_at : val_main_v20 (F := Ideal) x3 (ix4 b r c d) = Ideal.log (x3 (ix3 r c d)) := by
  rw [val_main_v20_apply, val_main_v19_apply, val_main_v18_apply, Ideal.hostUnary_log_def]
  exact congrArg (fun i => Ideal.log (x3 i))
    (funext fun a => Fin.ext (by match a with | ⟨0, _⟩ => rfl | ⟨1, _⟩ => rfl | ⟨2, _⟩ => rfl))

/-- The constant −½ at every index. -/
private theorem v15_at : val_main_v15 (F := Ideal) (ix4 b r c d) = Cert.Gauss.nh := by
  rw [val_main_v15_apply, val_main_cst_apply]
  rfl

/-- The constant ½ log 2π at every index. -/
private theorem v22_at : val_main_v22 (F := Ideal) (ix4 b r c d) = Cert.Gauss.hc := by
  rw [val_main_v22_apply, val_main_cst_1_apply]
  rfl

/-- The standardized feature. -/
private theorem v14_at : val_main_v14 (F := Ideal) x0 x1 x2 x3 (ix4 b r c d)
    = Cert.Gauss.std (x0 (ix2 b (Cert.Gauss.col (x1 (ix2 r d))))) (x2 (ix3 r c d)) (x3 (ix3 r c d)) := by
  rw [val_main_v14_apply, val_main_v11_apply, v9_at, v10_at, v13_at]
  rfl

/-- The unguarded term, grouped as (q − log s) − h. -/
private theorem v23_at : val_main_v23 (F := Ideal) x0 x1 x2 x3 (ix4 b r c d)
    = Cert.Gauss.termR (x0 (ix2 b (Cert.Gauss.col (x1 (ix2 r d))))) (x2 (ix3 r c d)) (x3 (ix3 r c d)) := by
  rw [val_main_v23_apply, val_main_v21_apply, val_main_v17_apply, val_main_v16_apply, v14_at, v15_at, v20_at, v22_at]
  rfl

/-- The guard "differs from itself" never fires, so the guarded term is the term. -/
private theorem v25_at : val_main_v25 (F := Ideal) x0 x1 x2 x3 (ix4 b r c d)
    = Cert.Gauss.termR (x0 (ix2 b (Cert.Gauss.col (x1 (ix2 r d))))) (x2 (ix3 r c d)) (x3 (ix3 r c d)) := by
  rw [val_main_v25_apply, val_main_v24_apply]
  exact (Cert.Gauss.guard_une _ _).trans (v23_at x0 x1 x2 x3 b r c d)

end Stages

/-- THE REFERENCE'S RESULT, entry by entry, is the specification: at (batch row b, region r, channel c) the zero the
    sum starts from plus the 49 guarded terms, each read down through the broadcasts to the gathered column. -/
theorem ref_apply (x0 : (⟨S512x784, .f32⟩ : BufTy).Contents (Elt Ideal)) (x1 : (⟨S512x49, .i32⟩ : BufTy).Contents (Elt Ideal))
    (x2 x3 : (⟨S512x16x49, .f32⟩ : BufTy).Contents (Elt Ideal)) (b r : Fin 512) (c : Fin 16) :
    val_main_v26 (F := Ideal) x0 x1 x2 x3 (ix3 b r c) = Cert.Gauss.G x0 x1 x2 x3 b r c := by
  refine (val_main_v26_apply x0 x1 x2 x3 (ix3 b r c)).trans ?_
  rw [val_main_cst_3_apply, Ideal.ofBits_def, Ideal.ofBits_zero_f32, zero_add]
  unfold Cert.Gauss.G
  refine Finset.sum_congr rfl fun d _ => ?_
  have e : idx_main_v26 (ix3 b r c) d = ix4 b r c d :=
    funext fun a => Fin.ext (by match a with | ⟨0, _⟩ => rfl | ⟨1, _⟩ => rfl | ⟨2, _⟩ => rfl | ⟨3, _⟩ => rfl)
  rw [e]
  exact v25_at x0 x1 x2 x3 b r c d

end Cert.ReferenceIdeal.RefValue

end
-- ==== Proof.Chan.lean ====
import proofs.«422789_j77120432767510_3_alg».proof.Proof.Gen.KernelIdeal.Skeleton
import proofs.«422789_j77120432767510_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Chan

open Cert.KernelIdeal Cert.KernelIdeal.Gen Idealize.ShloMosaic Idealize.ShloMosaic.ValueIdx

variable {F : FTy → Type} [FloatOps F]

/-- ONE CHANNEL of the body: from the shared table `nls` (`-log s - ½ log 2π`, all channels) take the channel's
    row at offset `o`, standardize the feature block `xg` by the channel's mean row `lc` and deviation row `sc`
    (each broadcast along the batch lanes), form `(-½ z) z + nls`, guard it, and sum over the 49 features. -/
def chanSum (nls : FVec F S64x16x49 .f32) (o : Fin 3 → Nat) (ho : S64x16x49.Slices o S64x1x49)
    (xg : Vec F S64x49x256 .f32) (lc : Vec F S64x1x49 .f32) (sc : Vec F S64x1x49 .f32) : FVec F S64x256 .f32 :=
  have v79 : FVec F S64x49x256 .f32 := shapeCast S64x49x256 xg shapeCasts_S64x49x256_S64x49x256
  have v81 : FVec F S64x49 .f32 := shapeCast S64x49 lc shapeCasts_S64x1x49_S64x49
  have v83 : FVec F S64x49 .f32 := shapeCast S64x49 sc shapeCasts_S64x1x49_S64x49
  have v84 : FVec F S64x1x49 .f32 := extractStridedSlice S64x1x49 o nls ho
  have v85 : FVec F S64x49 .f32 := shapeCast S64x49 v84 shapeCasts_S64x1x49_S64x49
  have v86 : FVec F S64x49x1 .f32 := shapeCast S64x49x1 v81 shapeCasts_S64x49_S64x49x1
  have v87 : FVec F S64x49x256 .f32 := broadcastTo S64x49x256 v86 broadcasts_S64x49x1_S64x49x256
  have v88 : FVec F S64x49x256 .f32 := subf v79 v87
  have v89 : FVec F S64x49x1 .f32 := shapeCast S64x49x1 v83 shapeCasts_S64x49_S64x49x1
  have v90 : FVec F S64x49x256 .f32 := broadcastTo S64x49x256 v89 broadcasts_S64x49x1_S64x49x256
  have v91 : FVec F S64x49x256 .f32 := divf v88 v90
  have cst_45 : F .f32 := Scalar.ofBits .f32 0xBF000000#32
  have v92 : FVec F S64x49x256 .f32 := broadcast S64x49x256 cst_45
  have v93 : FVec F S64x49x256 .f32 := mulf v92 v91
  have v94 : FVec F S64x49x256 .f32 := mulf v93 v91
  have v95 : FVec F S64x49x1 .f32 := shapeCast S64x49x1 v85 shapeCasts_S64x49_S64x49x1
  have v96 : FVec F S64x49x256 .f32 := broadcastTo S64x49x256 v95 broadcasts_S64x49x1_S64x49x256
  have v97 : FVec F S64x49x256 .f32 := addf v94 v96
  have v98 : IVec S64x49x256 1 := cmpf .one v97 v97
  have cst_46 : F .f32 := Scalar.ofBits .f32 0x00000000#32
  have v99 : FVec F S64x49x256 .f32 := broadcast S64x49x256 cst_46
  have v100 : FVec F S64x49x256 .f32 := select v98 v99 v97
  have v101 : FVec F S64x256 .f32 := multiReduction .add [1] S64x256 v100 0x00000000#32 reduces_S64x49x256_S64x256 (.inl rfl) rfl
  v101

/-! ### The layout operations of one channel, read at coordinates

Each of the block's layout operations reads, at an index given by its coordinates, its operand at one index; the
coordinates' arithmetic is the row-major position for a shape cast and one equation per axis for a slice and a broadcast. -/

section Layout
variable {α : Type}

/-- The unit middle axis dropped: a `[64, 1, 49]` block as `[64, 49]` reads, at `(r, d)`, the block at `(r, 0, d)`
    (both sit at row-major position `49 r + d`). -/
private theorem cast_squeeze (v : S64x1x49.Idx → α) (h : S64x1x49.ShapeCasts S64x49) (r : Fin 64) (d : Fin 49) :
    shapeCast S64x49 v h (ix2 r d) = v (ix3 r (0 : Fin 1) d) :=
  shapeCast_apply v h _ _ (by
    rw [Shape.rowMajor_val_three, Shape.rowMajor_val_two]
    show (r.val * 1 + 0) * 49 + d.val = r.val * 49 + d.val
    omega)

/-- A trailing unit axis added: a `[64, 49]` array as the column block `[64, 49, 1]` reads, at `(r, d, u)`, the array at
    `(r, d)`, whatever the unit coordinate `u`. -/
private theorem cast_column (v : S64x49.Idx → α) (h : S64x49.ShapeCasts S64x49x1) (r : Fin 64) (d : Fin 49) (u : Fin 1) :
    shapeCast S64x49x1 v h (ix3 r d u) = v (ix2 r d) :=
  shapeCast_apply v h _ _ (by
    have hu : u.val = 0 := by omega
    rw [Shape.rowMajor_val_three, Shape.rowMajor_val_two]
    show r.val * 49 + d.val = (r.val * 49 + d.val) * 1 + u.val
    omega)

/-- The column block broadcast along the 256 batch lanes reads, at `(r, d, b)`, the column at `(r, d, 0)`. -/
private theorem bcast_lanes (v : S64x49x1.Idx → α) (h : S64x49x1.Broadcasts S64x49x256) (r : Fin 64) (d : Fin 49)
    (b : Fin 256) : broadcastTo S64x49x256 v h (ix3 r d b) = v (ix3 r d (0 : Fin 1)) := by
  refine broadcastTo_apply v h (ix3 r d b) (ix3 r d (0 : Fin 1)) fun ax => ?_
  match ax with
  | ⟨0, _⟩ => rfl
  | ⟨1, _⟩ => rfl
  | ⟨2, _⟩ => rfl

/-- The three together: a `[64, 1, 49]` row block squeezed, stood up as a column and broadcast along the lanes reads, at
    `(r, d, b)`, the row block at `(r, 0, d)`: the same value on every lane `b`. -/
private theorem row_lanes_apply (v : S64x1x49.Idx → α) (h₁ : S64x1x49.ShapeCasts S64x49) (h₂ : S64x49.ShapeCasts S64x49x1)
    (h₃ : S64x49x1.Broadcasts S64x49x256) (r : Fin 64) (d : Fin 49) (b : Fin 256) :
    broadcastTo S64x49x256 (shapeCast S64x49x1 (shapeCast S64x49 v h₁) h₂) h₃ (ix3 r d b) = v (ix3 r (0 : Fin 1) d) :=
  (bcast_lanes _ h₃ r d b).trans ((cast_column _ h₂ r d 0).trans (cast_squeeze v h₁ r d))

/-- The channel's row of the table: the `[64, 1, 49]` slice of a `[64, 16, 49]` array at offset `o₁` on the channel axis
    reads, at `(r, u, d)`, the array at `(r, o₁, d)`. -/
private theorem slice_channel (o₁ : Nat) (ho₁ : o₁ < 16) (X : S64x16x49.Idx → α) (h : S64x16x49.Slices ![0, o₁, 0] S64x1x49)
    (r : Fin 64) (u : Fin 1) (d : Fin 49) :
    extractStridedSlice S64x1x49 ![0, o₁, 0] X h (ix3 r u d) = X (ix3 r (⟨o₁, ho₁⟩ : Fin 16) d) :=
  slice3_axis1_apply o₁ X h r u d ⟨o₁, ho₁⟩ (by
    have hu : u.val = 0 := by omega
    show o₁ = o₁ + u.val
    omega)

end Layout

/-! ### The pointwise operations and the sum over the features -/

/-- The sum over the feature axis of a `[64, 49, 256]` block, read at (row `r`, lane `b`): the `Fin 49`-indexed sum of the
    block at `(r, d, b)`. (The accumulator is the zero word, the sum's neutral element.) -/
private theorem sum_features (src : FVec Ideal S64x49x256 .f32) (hφ : FKind.Formats .f32)
    (hacc : (0x00000000#32 : BitVec 32) = 0x00000000#32) (r : Fin 64) (b : Fin 256) :
    multiReduction (F := Ideal) .add [1] S64x256 src 0x00000000#32 reduces_S64x49x256_S64x256 hφ hacc (ix2 r b)
      = ∑ d : Fin 49, src (ix3 r d b) := by
  refine (Ideal.multiReduction_add_single src 0x00000000#32 reduces_S64x49x256_S64x256 hφ hacc (ix2 r b)).trans ?_
  show (∑ d : Fin 49, src (reduces_S64x49x256_S64x256.lift (ix2 r b) d)) = _
  refine Finset.sum_congr rfl fun d _ => congrArg src ?_
  funext a
  match a with
  | ⟨0, _⟩ => exact Fin.ext rfl
  | ⟨1, _⟩ => exact Fin.ext rfl
  | ⟨2, _⟩ => exact Fin.ext rfl

/-- The guard keeps its term: no extended real differs from itself, so the select on "`V ≠ V`" reads `V`. -/
private theorem guard_apply {s : Shape} (V W : FVec Ideal s .f32) (i : s.Idx) :
    select (cmpf .one V V) W V i = V i :=
  Cert.Gauss.guard_one (V i) (W i)

/-- The standardized feature at an index, from what its three operands read there. -/
private theorem std_apply {s : Shape} (X L S : FVec Ideal s .f32) (i : s.Idx) (x l sd : EReal)
    (hx : X i = x) (hl : L i = l) (hs : S i = sd) : divf (subf X L) S i = Cert.Gauss.std x l sd := by
  subst hx hl hs; rfl

/-- The quadratic part `(-½ z) z` at an index, from what `z` reads there. -/
private theorem quad_apply {s : Shape} (Z : FVec Ideal s .f32) (i : s.Idx) (z : EReal) (hz : Z i = z) :
    mulf (mulf (broadcast s (Scalar.ofBits (F := Ideal) .f32 0xBF000000#32)) Z) Z i = Cert.Gauss.nh * z * z := by
  subst hz; rfl

/-- The shared table at an entry: `(0 - log s) - ½ log 2π`. -/
theorem pay2_apply (s : Vec Ideal S64x16x49 .f32) (r : Fin 64) (c : Fin 16) (d : Fin 49) :
    k0_pay2 (F := Ideal) s (ix3 r c d)
      = (Ideal.ofBits .f32 0x00000000#32 - Ideal.log (s (ix3 r c d))) - Cert.Gauss.hc := by
  rfl

/-- ONE CHANNEL READ AT (row r, lane b): the sum over the features `d` of the quadratic part of feature `(r, d, b)`
    under the channel's mean and deviation at `(r, d)`, plus the table's entry `(r, o₁, d)`. -/
theorem chanSum_apply (nls : FVec Ideal S64x16x49 .f32) (o₁ : Nat) (ho₁ : o₁ < 16)
    (ho : S64x16x49.Slices ![0, o₁, 0] S64x1x49)
    (xg : Vec Ideal S64x49x256 .f32) (lc : Vec Ideal S64x1x49 .f32) (sc : Vec Ideal S64x1x49 .f32)
    (r : Fin 64) (b : Fin 256) :
    chanSum (F := Ideal) nls ![0, o₁, 0] ho xg lc sc (ix2 r b)
      = ∑ d : Fin 49, (Cert.Gauss.quad (xg (ix3 r d b)) (lc (ix3 r (0 : Fin 1) d)) (sc (ix3 r (0 : Fin 1) d))
          + nls (ix3 r (⟨o₁, ho₁⟩ : Fin 16) d)) := by
  unfold chanSum
  -- the sum over the features, then feature by feature
  refine (sum_features _ _ _ r b).trans (Finset.sum_congr rfl fun d _ => ?_)
  -- the guard keeps the term, and the term is the quadratic part plus the table's entry
  refine (guard_apply _ _ _).trans ((addf_apply _ _ _).trans (congrArg₂ (· + ·) ?_ ?_))
  · -- the quadratic part of the feature standardized by the channel's mean and deviation rows
    exact quad_apply _ _ _ (std_apply _ _ _ _ _ _ _ (congrFun (shapeCast_self xg _) _)
      (row_lanes_apply lc _ _ _ r d b) (row_lanes_apply sc _ _ _ r d b))
  · -- the channel's row of the table, the same on every lane
    exact (row_lanes_apply _ _ _ _ r d b).trans (slice_channel o₁ ho₁ nls ho r 0 d)

end Cert.KernelIdeal.Chan

end
-- ==== Proof.Body.lean ====
import proofs.«422789_j77120432767510_3_alg».proof.Proof.Gen.KernelIdeal.Frame
import proofs.«422789_j77120432767510_3_alg».proof.Proof.Chan

noncomputable section

open scoped BigOperators

namespace Cert.KernelIdeal.Body

open Cert.KernelIdeal Cert.KernelIdeal.Gen Cert.KernelIdeal.Chan Idealize.ShloMosaic Idealize.ShloMosaic.ValueIdx

/-! ## Each channel's chain of payloads is the one-channel sum

The body computes the sixteen channels by sixteen copies of one computation, cut into named payloads at five
different places. Whatever the cut, the composite is `Chan.chanSum` of the shared table, the channel's offset in
it, the feature block and the channel's mean and deviation rows: both sides unfold to the same term. -/

section Chains
variable {F : FTy → Type} [FloatOps F]

theorem chain0 (s : Vec F S64x16x49 .f32) (xg : Vec F S64x49x256 .f32) (lc sc : Vec F S64x1x49 .f32) :
    k0_pay3 s xg lc sc
      = chanSum (k0_pay2 s) ![0, 0, 0] slices_S64x16x49_o0_0_0_S64x1x49 xg lc sc := rfl
theorem chain1 (nls : FVec F S64x16x49 .f32) (xg : Vec F S64x49x256 .f32) (lc sc : Vec F S64x1x49 .f32) :
    k0_pay6 nls (k0_pay4 xg) (k0_pay5 lc) sc
      = chanSum nls ![0, 1, 0] slices_S64x16x49_o0_1_0_S64x1x49 xg lc sc := rfl
theorem chain2 (nls : FVec F S64x16x49 .f32) (xg : Vec F S64x49x256 .f32) (lc sc : Vec F S64x1x49 .f32) :
    k0_pay8 (k0_pay7 nls xg lc sc)
      = chanSum nls ![0, 2, 0] slices_S64x16x49_o0_2_0_S64x1x49 xg lc sc := rfl
theorem chain3 (nls : FVec F S64x16x49 .f32) (xg : Vec F S64x49x256 .f32) (lc sc : Vec F S64x1x49 .f32) :
    k0_pay9 nls xg lc sc
      = chanSum nls ![0, 3, 0] slices_S64x16x49_o0_3_0_S64x1x49 xg lc sc := rfl
theorem chain4 (nls : FVec F S64x16x49 .f32) (xg : Vec F S64x49x256 .f32) (lc sc : Vec F S64x1x49 .f32) :
    k0_pay12 (k0_pay10 nls) (k0_pay11 xg lc sc)
      = chanSum nls ![0, 4, 0] slices_S64x16x49_o0_4_0_S64x1x49 xg lc sc := rfl
theorem chain5 (nls : FVec F S64x16x49 .f32) (xg : Vec F S64x49x256 .f32) (lc sc : Vec F S64x1x49 .f32) :
    k0_pay13 nls xg lc sc
      = chanSum nls ![0, 5, 0] slices_S64x16x49_o0_5_0_S64x1x49 xg lc sc := rfl
theorem chain6 (nls : FVec F S64x16x49 .f32) (xg : Vec F S64x49x256 .f32) (lc sc : Vec F S64x1x49 .f32) :
    k0_pay16 nls (k0_pay14 xg) (k0_pay15 lc) sc
      = chanSum nls ![0, 6, 0] slices_S64x16x49_o0_6_0_S64x1x49 xg lc sc := rfl
theorem chain7 (nls : FVec F S64x16x49 .f32) (xg : Vec F S64x49x256 .f32) (lc sc : Vec F S64x1x49 .f32) :
    k0_pay18 (k0_pay17 nls xg lc sc)
      = chanSum nls ![0, 7, 0] slices_S64x16x49_o0_7_0_S64x1x49 xg lc sc := rfl
theorem chain8 (nls : FVec F S64x16x49 .f32) (xg : Vec F S64x49x256 .f32) (lc sc : Vec F S64x1x49 .f32) :
    k0_pay19 nls xg lc sc
      = chanSum nls ![0, 8, 0] slices_S64x16x49_o0_8_0_S64x1x49 xg lc sc := rfl
theorem chain9 (nls : FVec F S64x16x49 .f32) (xg : Vec F S64x49x256 .f32) (lc sc : Vec F S64x1x49 .f32) :
    k0_pay22 (k0_pay20 nls) (k0_pay21 xg lc sc)
      = chanSum nls ![0, 9, 0] slices_S64x16x49_o0_9_0_S64x1x49 xg lc sc := rfl
theorem chain10 (nls : FVec F S64x16x49 .f32) (xg : Vec F S64x49x256 .f32) (lc sc : Vec F S64x1x49 .f32) :
    k0_pay23 nls xg lc sc
      = chanSum nls ![0, 10, 0] slices_S64x16x49_o0_10_0_S64x1x49 xg lc sc := rfl
theorem chain11 (nls : FVec F S64x16x49 .f32) (xg : Vec F S64x49x256 .f32) (lc sc : Vec F S64x1x49 .f32) :
    k0_pay26 nls (k0_pay24 xg) (k0_pay25 lc) sc
      = chanSum nls ![0, 11, 0] slices_S64x16x49_o0_11_0_S64x1x49 xg lc sc := rfl
theorem chain12 (nls : FVec F S64x16x49 .f32) (xg : Vec F S64x49x256 .f32) (lc sc : Vec F S64x1x49 .f32) :
    k0_pay28 (k0_pay27 nls xg lc sc)
      = chanSum nls ![0, 12, 0] slices_S64x16x49_o0_12_0_S64x1x49 xg lc sc := rfl
theorem chain13 (nls : FVec F S64x16x49 .f32) (xg : Vec F S64x49x256 .f32) (lc sc : Vec F S64x1x49 .f32) :
    k0_pay29 nls xg lc sc
      = chanSum nls ![0, 13, 0] slices_S64x16x49_o0_13_0_S64x1x49 xg lc sc := rfl
theorem chain14 (nls : FVec F S64x16x49 .f32) (xg : Vec F S64x49x256 .f32) (lc sc : Vec F S64x1x49 .f32) :
    k0_pay32 (k0_pay30 nls) (k0_pay31 xg lc sc)
      = chanSum nls ![0, 14, 0] slices_S64x16x49_o0_14_0_S64x1x49 xg lc sc := rfl
theorem chain15 (nls : FVec F S64x16x49 .f32) (xg : Vec F S64x49x256 .f32) (lc sc : Vec F S64x1x49 .f32) :
    k0_pay33 nls xg lc sc
      = chanSum nls ![0, 15, 0] slices_S64x16x49_o0_15_0_S64x1x49 xg lc sc := rfl

end Chains

/-! ## Reading the layout operations at an entry -/

/-- A `[64, 256]` block viewed as `[64, 1, 256]` reads, at `(r, u, b)`, the block at `(r, b)`: the unit axis adds nothing
    to the row-major position `r · 256 + b`. -/
theorem mid_cast {α : Type} (v : S64x256.Idx → α) (h : S64x256.ShapeCasts S64x1x256) (r : Fin 64) (u : Fin 1) (b : Fin 256) :
    shapeCast S64x1x256 v h (ix3 r u b) = v (ix2 r b) :=
  shapeCast_apply v h (ix3 r u b) (ix2 r b) (by
    rw [Shape.rowMajor_val_two, Shape.rowMajor_val_three]
    show r.val * 256 + b.val = (r.val * 1 + u.val) * 256 + b.val
    have := u.isLt
    omega)

/-- Row `o₁` of a `[64, 16, 49]` block, loaded as a `[64, 1, 49]` block, reads at `(r, 0, d)` the block at `(r, o₁, d)`:
    a unit-stride rectangle places its coordinate `j` at `offset + 1 · j`. -/
theorem row_ld (X : Vec Ideal S64x16x49 .f32) (o₁ : Nat) (ho₁ : o₁ < 16)
    (inb : ∀ a, (![0, o₁, 0] : Fin 3 → Nat) a + S64x1x49.size a ≤ S64x16x49.size a) (r : Fin 64) (d : Fin 49) :
    View.ld X (Rect.unit (s := S64x16x49) ![0, o₁, 0] S64x1x49.size inb) (ix3 r (0 : Fin 1) d)
      = X (ix3 r (⟨o₁, ho₁⟩ : Fin 16) d) := by
  show X _ = X _
  congr 1
  funext a
  match a with
  | ⟨0, _⟩ => exact Fin.ext (by show 0 + 1 * r.val = r.val; omega)
  | ⟨1, _⟩ => exact Fin.ext (by show o₁ + 1 * 0 = o₁; omega)
  | ⟨2, _⟩ => exact Fin.ext (by show 0 + 1 * d.val = d.val; omega)

/-- Off the channel axis, `(r, 0, b)` in a piece and `(r, c, b)` in the concatenation have the same coordinates. -/
theorem off_axis (r : Fin 64) (c : Fin 16) (b : Fin 256) (hr : S64x1x256.rank = S64x16x256.rank) :
    ∀ a : Fin S64x1x256.rank, a.cast hr ≠ (1 : Fin S64x16x256.rank) →
      ((ix3 r (0 : Fin 1) b) a).val = ((ix3 r c b) (a.cast hr)).val := fun a ha =>
  match a with
  | ⟨0, _⟩ => rfl
  | ⟨1, _⟩ => absurd rfl ha
  | ⟨2, _⟩ => rfl

/-! ## The stored block, channel by channel

The stored value is the concatenation along the channel axis of sixteen `[64, 1, 256]` pieces, so at `(r, c, b)` it is
piece `c` at `(r, 0, b)`. The last five pieces are the `[64, 256]` sums viewed
as `[64, 1, 256]`, read through `mid_cast`. -/

section Pieces
variable {F : FTy → Type} [FloatOps F]
variable {v293 v317 v341 v365 v389 : FVec F S64x256 .f32}
  {v390 v391 v392 v393 v394 v395 v396 v397 v398 v399 v400 : FVec F S64x1x256 .f32}

/-- THE STORED BLOCK AT (r, c, b) is piece `c` of the sixteen at `(r, 0, b)`: every piece has extent one along the
    channel axis, so the piece a channel coordinate names is the coordinate itself, at offset zero. -/
theorem pay1_apply (r : Fin 64) (c : Fin 16) (b : Fin 256) :
    k0_pay1 v293 v317 v341 v365 v389 v390 v391 v392 v393 v394 v395 v396 v397 v398 v399 v400 (ix3 r c b)
      = (![v390, v391, v392, v393, v394, v395, v396, v397, v398, v399, v400,
      shapeCast S64x1x256 v293 shapeCasts_S64x256_S64x1x256, shapeCast S64x1x256 v317 shapeCasts_S64x256_S64x1x256,
      shapeCast S64x1x256 v341 shapeCasts_S64x256_S64x1x256, shapeCast S64x1x256 v365 shapeCasts_S64x256_S64x1x256,
      shapeCast S64x1x256 v389 shapeCasts_S64x256_S64x1x256] : Fin 16 → FVec F S64x1x256 .f32) c (ix3 r (0 : Fin 1) b) :=
  concatenate_ofFn_unit_apply (t := S64x16x256) (s₁ := S64x1x256) 1
    (![v390, v391, v392, v393, v394, v395, v396, v397, v398, v399, v400,
      shapeCast S64x1x256 v293 shapeCasts_S64x256_S64x1x256, shapeCast S64x1x256 v317 shapeCasts_S64x256_S64x1x256,
      shapeCast S64x1x256 v341 shapeCasts_S64x256_S64x1x256, shapeCast S64x1x256 v365 shapeCasts_S64x256_S64x1x256,
      shapeCast S64x1x256 v389 shapeCasts_S64x256_S64x1x256] : Fin 16 → FVec F S64x1x256 .f32)
    concatenates_S64x1x256_S64x1x256_S64x1x256_S64x1x256_S64x1x256_S64x1x256_S64x1x256_S64x1x256_S64x1x256_S64x1x256_S64x1x256_S64x1x256_S64x1x256_S64x1x256_S64x1x256_S64x1x256_S64x16x256_d1
    rfl rfl (ix3 r c b) c rfl (ix3 r (0 : Fin 1) b) (off_axis r c b rfl)

/-! Channel by channel: channels 0 … 10 are stored as they are given, channels 11 … 15 as the `[64, 1, 256]` view of a
    `[64, 256]` sum, which reads the sum at `(r, b)`. -/

theorem piece0 (r : Fin 64) (b : Fin 256) :
    k0_pay1 v293 v317 v341 v365 v389 v390 v391 v392 v393 v394 v395 v396 v397 v398 v399 v400 (ix3 r (0 : Fin 16) b) = v390 (ix3 r (0 : Fin 1) b) := pay1_apply r 0 b
theorem piece1 (r : Fin 64) (b : Fin 256) :
    k0_pay1 v293 v317 v341 v365 v389 v390 v391 v392 v393 v394 v395 v396 v397 v398 v399 v400 (ix3 r (1 : Fin 16) b) = v391 (ix3 r (0 : Fin 1) b) := pay1_apply r 1 b
theorem piece2 (r : Fin 64) (b : Fin 256) :
    k0_pay1 v293 v317 v341 v365 v389 v390 v391 v392 v393 v394 v395 v396 v397 v398 v399 v400 (ix3 r (2 : Fin 16) b) = v392 (ix3 r (0 : Fin 1) b) := pay1_apply r 2 b
theorem piece3 (r : Fin 64) (b : Fin 256) :
    k0_pay1 v293 v317 v341 v365 v389 v390 v391 v392 v393 v394 v395 v396 v397 v398 v399 v400 (ix3 r (3 : Fin 16) b) = v393 (ix3 r (0 : Fin 1) b) := pay1_apply r 3 b
theorem piece4 (r : Fin 64) (b : Fin 256) :
    k0_pay1 v293 v317 v341 v365 v389 v390 v391 v392 v393 v394 v395 v396 v397 v398 v399 v400 (ix3 r (4 : Fin 16) b) = v394 (ix3 r (0 : Fin 1) b) := pay1_apply r 4 b
theorem piece5 (r : Fin 64) (b : Fin 256) :
    k0_pay1 v293 v317 v341 v365 v389 v390 v391 v392 v393 v394 v395 v396 v397 v398 v399 v400 (ix3 r (5 : Fin 16) b) = v395 (ix3 r (0 : Fin 1) b) := pay1_apply r 5 b
theorem piece6 (r : Fin 64) (b : Fin 256) :
    k0_pay1 v293 v317 v341 v365 v389 v390 v391 v392 v393 v394 v395 v396 v397 v398 v399 v400 (ix3 r (6 : Fin 16) b) = v396 (ix3 r (0 : Fin 1) b) := pay1_apply r 6 b
theorem piece7 (r : Fin 64) (b : Fin 256) :
    k0_pay1 v293 v317 v341 v365 v389 v390 v391 v392 v393 v394 v395 v396 v397 v398 v399 v400 (ix3 r (7 : Fin 16) b) = v397 (ix3 r (0 : Fin 1) b) := pay1_apply r 7 b
theorem piece8 (r : Fin 64) (b : Fin 256) :
    k0_pay1 v293 v317 v341 v365 v389 v390 v391 v392 v393 v394 v395 v396 v397 v398 v399 v400 (ix3 r (8 : Fin 16) b) = v398 (ix3 r (0 : Fin 1) b) := pay1_apply r 8 b
theorem piece9 (r : Fin 64) (b : Fin 256) :
    k0_pay1 v293 v317 v341 v365 v389 v390 v391 v392 v393 v394 v395 v396 v397 v398 v399 v400 (ix3 r (9 : Fin 16) b) = v399 (ix3 r (0 : Fin 1) b) := pay1_apply r 9 b
theorem piece10 (r : Fin 64) (b : Fin 256) :
    k0_pay1 v293 v317 v341 v365 v389 v390 v391 v392 v393 v394 v395 v396 v397 v398 v399 v400 (ix3 r (10 : Fin 16) b) = v400 (ix3 r (0 : Fin 1) b) := pay1_apply r 10 b
theorem piece11 (r : Fin 64) (b : Fin 256) :
    k0_pay1 v293 v317 v341 v365 v389 v390 v391 v392 v393 v394 v395 v396 v397 v398 v399 v400 (ix3 r (11 : Fin 16) b) = v293 (ix2 r b) :=
  (pay1_apply r 11 b).trans (mid_cast v293 _ r 0 b)
theorem piece12 (r : Fin 64) (b : Fin 256) :
    k0_pay1 v293 v317 v341 v365 v389 v390 v391 v392 v393 v394 v395 v396 v397 v398 v399 v400 (ix3 r (12 : Fin 16) b) = v317 (ix2 r b) :=
  (pay1_apply r 12 b).trans (mid_cast v317 _ r 0 b)
theorem piece13 (r : Fin 64) (b : Fin 256) :
    k0_pay1 v293 v317 v341 v365 v389 v390 v391 v392 v393 v394 v395 v396 v397 v398 v399 v400 (ix3 r (13 : Fin 16) b) = v341 (ix2 r b) :=
  (pay1_apply r 13 b).trans (mid_cast v341 _ r 0 b)
theorem piece14 (r : Fin 64) (b : Fin 256) :
    k0_pay1 v293 v317 v341 v365 v389 v390 v391 v392 v393 v394 v395 v396 v397 v398 v399 v400 (ix3 r (14 : Fin 16) b) = v365 (ix2 r b) :=
  (pay1_apply r 14 b).trans (mid_cast v365 _ r 0 b)
theorem piece15 (r : Fin 64) (b : Fin 256) :
    k0_pay1 v293 v317 v341 v365 v389 v390 v391 v392 v393 v394 v395 v396 v397 v398 v399 v400 (ix3 r (15 : Fin 16) b) = v389 (ix2 r b) :=
  (pay1_apply r 15 b).trans (mid_cast v389 _ r 0 b)

/-! The first eleven channels' sums are viewed as `[64, 1, 256]` before the concatenation; each view reads the sum at
    `(r, b)`. -/

theorem cast0 (w : FVec F S64x256 .f32) (r : Fin 64) (b : Fin 256) :
    k0_pay34 w (ix3 r (0 : Fin 1) b) = w (ix2 r b) := mid_cast w _ r 0 b
theorem cast1 (w : FVec F S64x256 .f32) (r : Fin 64) (b : Fin 256) :
    k0_pay35 w (ix3 r (0 : Fin 1) b) = w (ix2 r b) := mid_cast w _ r 0 b
theorem cast2 (w : FVec F S64x256 .f32) (r : Fin 64) (b : Fin 256) :
    k0_pay36 w (ix3 r (0 : Fin 1) b) = w (ix2 r b) := mid_cast w _ r 0 b
theorem cast3 (w : FVec F S64x256 .f32) (r : Fin 64) (b : Fin 256) :
    k0_pay37 w (ix3 r (0 : Fin 1) b) = w (ix2 r b) := mid_cast w _ r 0 b
theorem cast4 (w : FVec F S64x256 .f32) (r : Fin 64) (b : Fin 256) :
    k0_pay38 w (ix3 r (0 : Fin 1) b) = w (ix2 r b) := mid_cast w _ r 0 b
theorem cast5 (w : FVec F S64x256 .f32) (r : Fin 64) (b : Fin 256) :
    k0_pay39 w (ix3 r (0 : Fin 1) b) = w (ix2 r b) := mid_cast w _ r 0 b
theorem cast6 (w : FVec F S64x256 .f32) (r : Fin 64) (b : Fin 256) :
    k0_pay40 w (ix3 r (0 : Fin 1) b) = w (ix2 r b) := mid_cast w _ r 0 b
theorem cast7 (w : FVec F S64x256 .f32) (r : Fin 64) (b : Fin 256) :
    k0_pay41 w (ix3 r (0 : Fin 1) b) = w (ix2 r b) := mid_cast w _ r 0 b
theorem cast8 (w : FVec F S64x256 .f32) (r : Fin 64) (b : Fin 256) :
    k0_pay42 w (ix3 r (0 : Fin 1) b) = w (ix2 r b) := mid_cast w _ r 0 b
theorem cast9 (w : FVec F S64x256 .f32) (r : Fin 64) (b : Fin 256) :
    k0_pay43 w (ix3 r (0 : Fin 1) b) = w (ix2 r b) := mid_cast w _ r 0 b
theorem cast10 (w : FVec F S64x256 .f32) (r : Fin 64) (b : Fin 256) :
    k0_pay44 w (ix3 r (0 : Fin 1) b) = w (ix2 r b) := mid_cast w _ r 0 b

end Pieces

/-! ## One channel at an entry -/

/-- CHANNEL `o₁` AT (row r, lane b), over the whole blocks: the one-channel sum of the table `(0 - log s) - ½ log 2π`,
    the feature block and rows `o₁` of the mean and deviation blocks is the sum over the features of the per-feature
    term. Each summand is the quadratic part plus the table's entry, which is the term's grouping
    `q + ((0 - log s) - h)` as it stands. -/
theorem chan_at (x0 : Vec Ideal S64x49x256 .f32) (x1 x2 : Vec Ideal S64x16x49 .f32) (o₁ : Nat) (ho₁ : o₁ < 16)
    (ho : S64x16x49.Slices ![0, o₁, 0] S64x1x49)
    (inb : ∀ a, (![0, o₁, 0] : Fin 3 → Nat) a + S64x1x49.size a ≤ S64x16x49.size a) (r : Fin 64) (b : Fin 256) :
    chanSum (F := Ideal) (k0_pay2 x2) ![0, o₁, 0] ho x0
        (View.ld x1 (Rect.unit (s := S64x16x49) ![0, o₁, 0] S64x1x49.size inb))
        (View.ld x2 (Rect.unit (s := S64x16x49) ![0, o₁, 0] S64x1x49.size inb)) (ix2 r b)
      = ∑ d : Fin 49, Cert.Gauss.termK (x0 (ix3 r d b)) (x1 (ix3 r (⟨o₁, ho₁⟩ : Fin 16) d))
          (x2 (ix3 r (⟨o₁, ho₁⟩ : Fin 16) d)) := by
  refine (chanSum_apply (k0_pay2 x2) o₁ ho₁ ho x0 _ _ r b).trans ?_
  refine Finset.sum_congr rfl fun d _ => ?_
  rw [pay2_apply x2 r ⟨o₁, ho₁⟩ d, row_ld x1 o₁ ho₁ inb r d, row_ld x2 o₁ ho₁ inb r d]
  rfl

/-! The sixteen channels: channel `k`'s chain of payloads is the one-channel sum at offset `k` of the table (`chain k`),
    over row `k` of the mean and deviation blocks, so `chan_at` reads it. -/

theorem chan0 (x0 : Vec Ideal S64x49x256 .f32) (x1 x2 : Vec Ideal S64x16x49 .f32) (r : Fin 64) (b : Fin 256) :
    k0_pay3 x2 x0 (View.ld x1 r0_2) (View.ld x2 r0_2) (ix2 r b)
      = ∑ d : Fin 49, Cert.Gauss.termK (x0 (ix3 r d b)) (x1 (ix3 r (0 : Fin 16) d)) (x2 (ix3 r (0 : Fin 16) d)) :=
  (congrFun (chain0 (F := Ideal) _ _ _ _) (ix2 r b)).trans
    (chan_at x0 x1 x2 0 (by decide) slices_S64x16x49_o0_0_0_S64x1x49 inb_S64x16x49_S64x1x49_0_0_0 r b)
theorem chan1 (x0 : Vec Ideal S64x49x256 .f32) (x1 x2 : Vec Ideal S64x16x49 .f32) (r : Fin 64) (b : Fin 256) :
    k0_pay6 (k0_pay2 x2) (k0_pay4 x0) (k0_pay5 (View.ld x1 r0_3)) (View.ld x2 r0_3) (ix2 r b)
      = ∑ d : Fin 49, Cert.Gauss.termK (x0 (ix3 r d b)) (x1 (ix3 r (1 : Fin 16) d)) (x2 (ix3 r (1 : Fin 16) d)) :=
  (congrFun (chain1 (F := Ideal) _ _ _ _) (ix2 r b)).trans
    (chan_at x0 x1 x2 1 (by decide) slices_S64x16x49_o0_1_0_S64x1x49 inb_S64x16x49_S64x1x49_0_1_0 r b)
theorem chan2 (x0 : Vec Ideal S64x49x256 .f32) (x1 x2 : Vec Ideal S64x16x49 .f32) (r : Fin 64) (b : Fin 256) :
    k0_pay8 (k0_pay7 (k0_pay2 x2) x0 (View.ld x1 r0_4) (View.ld x2 r0_4)) (ix2 r b)
      = ∑ d : Fin 49, Cert.Gauss.termK (x0 (ix3 r d b)) (x1 (ix3 r (2 : Fin 16) d)) (x2 (ix3 r (2 : Fin 16) d)) :=
  (congrFun (chain2 (F := Ideal) _ _ _ _) (ix2 r b)).trans
    (chan_at x0 x1 x2 2 (by decide) slices_S64x16x49_o0_2_0_S64x1x49 inb_S64x16x49_S64x1x49_0_2_0 r b)
theorem chan3 (x0 : Vec Ideal S64x49x256 .f32) (x1 x2 : Vec Ideal S64x16x49 .f32) (r : Fin 64) (b : Fin 256) :
    k0_pay9 (k0_pay2 x2) x0 (View.ld x1 r0_5) (View.ld x2 r0_5) (ix2 r b)
      = ∑ d : Fin 49, Cert.Gauss.termK (x0 (ix3 r d b)) (x1 (ix3 r (3 : Fin 16) d)) (x2 (ix3 r (3 : Fin 16) d)) :=
  (congrFun (chain3 (F := Ideal) _ _ _ _) (ix2 r b)).trans
    (chan_at x0 x1 x2 3 (by decide) slices_S64x16x49_o0_3_0_S64x1x49 inb_S64x16x49_S64x1x49_0_3_0 r b)
theorem chan4 (x0 : Vec Ideal S64x49x256 .f32) (x1 x2 : Vec Ideal S64x16x49 .f32) (r : Fin 64) (b : Fin 256) :
    k0_pay12 (k0_pay10 (k0_pay2 x2)) (k0_pay11 x0 (View.ld x1 r0_6) (View.ld x2 r0_6)) (ix2 r b)
      = ∑ d : Fin 49, Cert.Gauss.termK (x0 (ix3 r d b)) (x1 (ix3 r (4 : Fin 16) d)) (x2 (ix3 r (4 : Fin 16) d)) :=
  (congrFun (chain4 (F := Ideal) _ _ _ _) (ix2 r b)).trans
    (chan_at x0 x1 x2 4 (by decide) slices_S64x16x49_o0_4_0_S64x1x49 inb_S64x16x49_S64x1x49_0_4_0 r b)
theorem chan5 (x0 : Vec Ideal S64x49x256 .f32) (x1 x2 : Vec Ideal S64x16x49 .f32) (r : Fin 64) (b : Fin 256) :
    k0_pay13 (k0_pay2 x2) x0 (View.ld x1 r0_7) (View.ld x2 r0_7) (ix2 r b)
      = ∑ d : Fin 49, Cert.Gauss.termK (x0 (ix3 r d b)) (x1 (ix3 r (5 : Fin 16) d)) (x2 (ix3 r (5 : Fin 16) d)) :=
  (congrFun (chain5 (F := Ideal) _ _ _ _) (ix2 r b)).trans
    (chan_at x0 x1 x2 5 (by decide) slices_S64x16x49_o0_5_0_S64x1x49 inb_S64x16x49_S64x1x49_0_5_0 r b)
theorem chan6 (x0 : Vec Ideal S64x49x256 .f32) (x1 x2 : Vec Ideal S64x16x49 .f32) (r : Fin 64) (b : Fin 256) :
    k0_pay16 (k0_pay2 x2) (k0_pay14 x0) (k0_pay15 (View.ld x1 r0_8)) (View.ld x2 r0_8) (ix2 r b)
      = ∑ d : Fin 49, Cert.Gauss.termK (x0 (ix3 r d b)) (x1 (ix3 r (6 : Fin 16) d)) (x2 (ix3 r (6 : Fin 16) d)) :=
  (congrFun (chain6 (F := Ideal) _ _ _ _) (ix2 r b)).trans
    (chan_at x0 x1 x2 6 (by decide) slices_S64x16x49_o0_6_0_S64x1x49 inb_S64x16x49_S64x1x49_0_6_0 r b)
theorem chan7 (x0 : Vec Ideal S64x49x256 .f32) (x1 x2 : Vec Ideal S64x16x49 .f32) (r : Fin 64) (b : Fin 256) :
    k0_pay18 (k0_pay17 (k0_pay2 x2) x0 (View.ld x1 r0_9) (View.ld x2 r0_9)) (ix2 r b)
      = ∑ d : Fin 49, Cert.Gauss.termK (x0 (ix3 r d b)) (x1 (ix3 r (7 : Fin 16) d)) (x2 (ix3 r (7 : Fin 16) d)) :=
  (congrFun (chain7 (F := Ideal) _ _ _ _) (ix2 r b)).trans
    (chan_at x0 x1 x2 7 (by decide) slices_S64x16x49_o0_7_0_S64x1x49 inb_S64x16x49_S64x1x49_0_7_0 r b)
theorem chan8 (x0 : Vec Ideal S64x49x256 .f32) (x1 x2 : Vec Ideal S64x16x49 .f32) (r : Fin 64) (b : Fin 256) :
    k0_pay19 (k0_pay2 x2) x0 (View.ld x1 r0_10) (View.ld x2 r0_10) (ix2 r b)
      = ∑ d : Fin 49, Cert.Gauss.termK (x0 (ix3 r d b)) (x1 (ix3 r (8 : Fin 16) d)) (x2 (ix3 r (8 : Fin 16) d)) :=
  (congrFun (chain8 (F := Ideal) _ _ _ _) (ix2 r b)).trans
    (chan_at x0 x1 x2 8 (by decide) slices_S64x16x49_o0_8_0_S64x1x49 inb_S64x16x49_S64x1x49_0_8_0 r b)
theorem chan9 (x0 : Vec Ideal S64x49x256 .f32) (x1 x2 : Vec Ideal S64x16x49 .f32) (r : Fin 64) (b : Fin 256) :
    k0_pay22 (k0_pay20 (k0_pay2 x2)) (k0_pay21 x0 (View.ld x1 r0_11) (View.ld x2 r0_11)) (ix2 r b)
      = ∑ d : Fin 49, Cert.Gauss.termK (x0 (ix3 r d b)) (x1 (ix3 r (9 : Fin 16) d)) (x2 (ix3 r (9 : Fin 16) d)) :=
  (congrFun (chain9 (F := Ideal) _ _ _ _) (ix2 r b)).trans
    (chan_at x0 x1 x2 9 (by decide) slices_S64x16x49_o0_9_0_S64x1x49 inb_S64x16x49_S64x1x49_0_9_0 r b)
theorem chan10 (x0 : Vec Ideal S64x49x256 .f32) (x1 x2 : Vec Ideal S64x16x49 .f32) (r : Fin 64) (b : Fin 256) :
    k0_pay23 (k0_pay2 x2) x0 (View.ld x1 r0_12) (View.ld x2 r0_12) (ix2 r b)
      = ∑ d : Fin 49, Cert.Gauss.termK (x0 (ix3 r d b)) (x1 (ix3 r (10 : Fin 16) d)) (x2 (ix3 r (10 : Fin 16) d)) :=
  (congrFun (chain10 (F := Ideal) _ _ _ _) (ix2 r b)).trans
    (chan_at x0 x1 x2 10 (by decide) slices_S64x16x49_o0_10_0_S64x1x49 inb_S64x16x49_S64x1x49_0_10_0 r b)
theorem chan11 (x0 : Vec Ideal S64x49x256 .f32) (x1 x2 : Vec Ideal S64x16x49 .f32) (r : Fin 64) (b : Fin 256) :
    k0_pay26 (k0_pay2 x2) (k0_pay24 x0) (k0_pay25 (View.ld x1 r0_13)) (View.ld x2 r0_13) (ix2 r b)
      = ∑ d : Fin 49, Cert.Gauss.termK (x0 (ix3 r d b)) (x1 (ix3 r (11 : Fin 16) d)) (x2 (ix3 r (11 : Fin 16) d)) :=
  (congrFun (chain11 (F := Ideal) _ _ _ _) (ix2 r b)).trans
    (chan_at x0 x1 x2 11 (by decide) slices_S64x16x49_o0_11_0_S64x1x49 inb_S64x16x49_S64x1x49_0_11_0 r b)
theorem chan12 (x0 : Vec Ideal S64x49x256 .f32) (x1 x2 : Vec Ideal S64x16x49 .f32) (r : Fin 64) (b : Fin 256) :
    k0_pay28 (k0_pay27 (k0_pay2 x2) x0 (View.ld x1 r0_14) (View.ld x2 r0_14)) (ix2 r b)
      = ∑ d : Fin 49, Cert.Gauss.termK (x0 (ix3 r d b)) (x1 (ix3 r (12 : Fin 16) d)) (x2 (ix3 r (12 : Fin 16) d)) :=
  (congrFun (chain12 (F := Ideal) _ _ _ _) (ix2 r b)).trans
    (chan_at x0 x1 x2 12 (by decide) slices_S64x16x49_o0_12_0_S64x1x49 inb_S64x16x49_S64x1x49_0_12_0 r b)
theorem chan13 (x0 : Vec Ideal S64x49x256 .f32) (x1 x2 : Vec Ideal S64x16x49 .f32) (r : Fin 64) (b : Fin 256) :
    k0_pay29 (k0_pay2 x2) x0 (View.ld x1 r0_15) (View.ld x2 r0_15) (ix2 r b)
      = ∑ d : Fin 49, Cert.Gauss.termK (x0 (ix3 r d b)) (x1 (ix3 r (13 : Fin 16) d)) (x2 (ix3 r (13 : Fin 16) d)) :=
  (congrFun (chain13 (F := Ideal) _ _ _ _) (ix2 r b)).trans
    (chan_at x0 x1 x2 13 (by decide) slices_S64x16x49_o0_13_0_S64x1x49 inb_S64x16x49_S64x1x49_0_13_0 r b)
theorem chan14 (x0 : Vec Ideal S64x49x256 .f32) (x1 x2 : Vec Ideal S64x16x49 .f32) (r : Fin 64) (b : Fin 256) :
    k0_pay32 (k0_pay30 (k0_pay2 x2)) (k0_pay31 x0 (View.ld x1 r0_16) (View.ld x2 r0_16)) (ix2 r b)
      = ∑ d : Fin 49, Cert.Gauss.termK (x0 (ix3 r d b)) (x1 (ix3 r (14 : Fin 16) d)) (x2 (ix3 r (14 : Fin 16) d)) :=
  (congrFun (chain14 (F := Ideal) _ _ _ _) (ix2 r b)).trans
    (chan_at x0 x1 x2 14 (by decide) slices_S64x16x49_o0_14_0_S64x1x49 inb_S64x16x49_S64x1x49_0_14_0 r b)
theorem chan15 (x0 : Vec Ideal S64x49x256 .f32) (x1 x2 : Vec Ideal S64x16x49 .f32) (r : Fin 64) (b : Fin 256) :
    k0_pay33 (k0_pay2 x2) x0 (View.ld x1 r0_17) (View.ld x2 r0_17) (ix2 r b)
      = ∑ d : Fin 49, Cert.Gauss.termK (x0 (ix3 r d b)) (x1 (ix3 r (15 : Fin 16) d)) (x2 (ix3 r (15 : Fin 16) d)) :=
  (congrFun (chain15 (F := Ideal) _ _ _ _) (ix2 r b)).trans
    (chan_at x0 x1 x2 15 (by decide) slices_S64x16x49_o0_15_0_S64x1x49 inb_S64x16x49_S64x1x49_0_15_0 r b)

/-! ## The output block -/

/-- WHAT THE BODY LEAVES in the output block, entry by entry: at (row r, channel c, lane b) the sum over the 49
    features of the per-feature term (the grouping `q + ((0 - log s) - h)`) of feature block entry `(r, d, b)`
    under mean `(r, c, d)` and deviation `(r, c, d)`. The one store covers the whole block, and the two whole-block
    loads read their blocks as they are; the stored concatenation at channel `c` is that channel's sum. -/
theorem out_apply (x0 : Vec Ideal S64x49x256 .f32) (x1 : Vec Ideal S64x16x49 .f32) (x2 : Vec Ideal S64x16x49 .f32)
    (r : Fin 64) (c : Fin 16) (b : Fin 256) :
    out0_3 (F := Ideal) x0 x1 x2 (ix3 r c b)
      = ∑ d : Fin 49, Cert.Gauss.termK (x0 (ix3 r d b)) (x1 (ix3 r c d)) (x2 (ix3 r c d)) := by
  have hz : (![0, 0, 0] : Fin 3 → Nat) = fun _ => 0 := by
    funext a
    match a with
    | ⟨0, _⟩ => rfl
    | ⟨1, _⟩ => rfl
    | ⟨2, _⟩ => rfl
  have e2 : View.ld x2 r0_0 = x2 := View.ld_unit_zero (S := S64x16x49) hz _ x2
  have e0 : View.ld x0 r0_1 = x0 := View.ld_unit_zero (S := S64x49x256) hz _ x0
  unfold out0_3
  rw [View.canon_unit_zero hz, e2, e0]
  obtain ⟨k, hk⟩ := c
  interval_cases k
  · exact (piece0 r b).trans ((cast0 _ r b).trans (chan0 x0 x1 x2 r b))
  · exact (piece1 r b).trans ((cast1 _ r b).trans (chan1 x0 x1 x2 r b))
  · exact (piece2 r b).trans ((cast2 _ r b).trans (chan2 x0 x1 x2 r b))
  · exact (piece3 r b).trans ((cast3 _ r b).trans (chan3 x0 x1 x2 r b))
  · exact (piece4 r b).trans ((cast4 _ r b).trans (chan4 x0 x1 x2 r b))
  · exact (piece5 r b).trans ((cast5 _ r b).trans (chan5 x0 x1 x2 r b))
  · exact (piece6 r b).trans ((cast6 _ r b).trans (chan6 x0 x1 x2 r b))
  · exact (piece7 r b).trans ((cast7 _ r b).trans (chan7 x0 x1 x2 r b))
  · exact (piece8 r b).trans ((cast8 _ r b).trans (chan8 x0 x1 x2 r b))
  · exact (piece9 r b).trans ((cast9 _ r b).trans (chan9 x0 x1 x2 r b))
  · exact (piece10 r b).trans ((cast10 _ r b).trans (chan10 x0 x1 x2 r b))
  · exact (piece11 r b).trans (chan11 x0 x1 x2 r b)
  · exact (piece12 r b).trans (chan12 x0 x1 x2 r b)
  · exact (piece13 r b).trans (chan13 x0 x1 x2 r b)
  · exact (piece14 r b).trans (chan14 x0 x1 x2 r b)
  · exact (piece15 r b).trans (chan15 x0 x1 x2 r b)

end Cert.KernelIdeal.Body

end
-- ==== Proof.Blocks.lean ====
import proofs.«422789_j77120432767510_3_alg».proof.Proof.Gen.KernelIdeal.Frame
import proofs.«422789_j77120432767510_3_alg».proof.Proof.Body
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The three arrays the region reads, as it finds them: the gathered features [region, feature, batch row], the
    means and the deviations [region, channel, feature]. -/
abbrev feat (c : Dev nD) : S512x49x512.Idx → EReal := V m c main_v3
abbrev mean (c : Dev nD) : S512x16x49.Idx → EReal := V m c main_arg2
abbrev dev (c : Dev nD) : S512x16x49.Idx → EReal := V m c main_arg3

/-- The output array [region, channel, batch row] as ONE function of those three: the sum over the features of the
    per-feature term. Every block the grid writes is the restriction of this function to the block. -/
def GK (c : Dev nD) : S512x16x512.Idx → EReal := fun i =>
  ∑ d : Fin 49, Cert.Gauss.termK (feat m c (ix3 (i 0) d (i 2))) (mean m c (ix3 (i 0) (i 1) d)) (dev m c (ix3 (i 0) (i 1) d))

/-- The printed index maps over the 8 × 2 grid: every window's region-block index is the output's, the feature
    window's batch-block index is the output's, and all other block indices are 0. -/
theorem idx_facts : ∀ t : Fin cfg0.N,
    win0_0.index t (0 : Fin 3) = win0_3.index t (0 : Fin 3) ∧ win0_0.index t (1 : Fin 3) = 0
    ∧ win0_0.index t (2 : Fin 3) = win0_3.index t (2 : Fin 3)
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) = 0 ∧ win0_3.index t (2 : Fin 3) ≤ 1 :=
  (by decide +kernel : ∀ t : Fin grid0.N, _)

/-- Every (region block, batch block) pair is some grid point's. -/
theorem idx_onto : ∀ (q0 : Fin 8) (q2 : Fin 2), ∃ t : Fin cfg0.N, win0_3.index t = ![q0.val, 0, q2.val] :=
  (by decide +kernel : ∀ (q0 : Fin 8) (q2 : Fin 2), ∃ t : Fin grid0.N, win0_3.index t = ![q0.val, 0, q2.val])

/-- WHAT POINT `t` WRITES BACK is block `t` of `GK`. -/
theorem flushed_eq (c : Dev nD) (t : Fin cfg0.N) :
    (dats m 0 c).flushed 3 t = ((cfg0.win 3).blk t).view.read (Elt Ideal) (GK m c) := by
  show (cfg0.win 3).cut (grid0.coords t) ((dats m 0 c).after 3 t) = _
  rw [after0_3]
  funext j
  obtain ⟨r, cc, b, rfl⟩ : ∃ (r : Fin 64) (cc : Fin 16) (b : Fin 256), j = ix3 r cc b := ⟨j 0, j 1, j 2, eq_ix3 j⟩
  show out0_3 (iblk m c 0 t) (iblk m c 1 t) (iblk m c 2 t) (ix3 r cc b) = GK m c (((cfg0.win 3).blk t).view.emb (ix3 r cc b))
  refine (Cert.KernelIdeal.Body.out_apply (iblk m c 0 t) (iblk m c 1 t) (iblk m c 2 t) r cc b).trans ?_
  obtain ⟨e0, e1, e2, e3, e4, e5, e6, e7, e8, e9, e10, e11⟩ := idx_facts t
  unfold GK
  refine Finset.sum_congr rfl fun d _ => ?_
  -- the feature block at (r, d, b) is the feature array at the output entry's region and batch row, feature d
  have h0 : iblk m c 0 t (ix3 r d b)
      = feat m c (ix3 ((((cfg0.win 3).blk t).view.emb (ix3 r cc b)) 0) d ((((cfg0.win 3).blk t).view.emb (ix3 r cc b)) 2)) := by
    show feat m c (((cfg0.win 0).blk t).view.emb (ix3 r d b)) = _
    refine congrArg (feat m c) ?_
    funext a; apply Fin.ext
    match a with
    | ⟨0, _⟩ => show win0_0.index t (0 : Fin 3) * 64 + 1 * r.val = win0_3.index t (0 : Fin 3) * 64 + 1 * r.val; omega
    | ⟨1, _⟩ => show win0_0.index t (1 : Fin 3) * 49 + 1 * d.val = d.val; omega
    | ⟨2, _⟩ => show win0_0.index t (2 : Fin 3) * 256 + 1 * b.val = win0_3.index t (2 : Fin 3) * 256 + 1 * b.val; omega
  -- the mean and deviation blocks at (r, cc, d) are their arrays at the output entry's region and channel, feature d
  have h1 : iblk m c 1 t (ix3 r cc d)
      = mean m c (ix3 ((((cfg0.win 3).blk t).view.emb (ix3 r cc b)) 0) ((((cfg0.win 3).blk t).view.emb (ix3 r cc b)) 1) d) := by
    show mean m c (((cfg0.win 1).blk t).view.emb (ix3 r cc d)) = _
    refine congrArg (mean m c) ?_
    funext a; apply Fin.ext
    match a with
    | ⟨0, _⟩ => show win0_1.index t (0 : Fin 3) * 64 + 1 * r.val = win0_3.index t (0 : Fin 3) * 64 + 1 * r.val; omega
    | ⟨1, _⟩ => show win0_1.index t (1 : Fin 3) * 16 + 1 * cc.val = win0_3.index t (1 : Fin 3) * 16 + 1 * cc.val; omega
    | ⟨2, _⟩ => show win0_1.index t (2 : Fin 3) * 49 + 1 * d.val = d.val; omega
  have h2 : iblk m c 2 t (ix3 r cc d)
      = dev m c (ix3 ((((cfg0.win 3).blk t).view.emb (ix3 r cc b)) 0) ((((cfg0.win 3).blk t).view.emb (ix3 r cc b)) 1) d) := by
    show dev m c (((cfg0.win 2).blk t).view.emb (ix3 r cc d)) = _
    refine congrArg (dev m c) ?_
    funext a; apply Fin.ext
    match a with
    | ⟨0, _⟩ => show win0_2.index t (0 : Fin 3) * 64 + 1 * r.val = win0_3.index t (0 : Fin 3) * 64 + 1 * r.val; omega
    | ⟨1, _⟩ => show win0_2.index t (1 : Fin 3) * 16 + 1 * cc.val = win0_3.index t (1 : Fin 3) * 16 + 1 * cc.val; omega
    | ⟨2, _⟩ => show win0_2.index t (2 : Fin 3) * 49 + 1 * d.val = d.val; omega
  rw [h0, h1, h2]

/-- An index of the output array is in point `t`'s block iff each coordinate is in the block's range on its axis. -/
theorem mem_blk (t : Fin cfg0.N) (i : S512x16x512.Idx) :
    i ∈ ((cfg0.win 3).blk t).view.set ↔ ∀ a : Fin 3, win0_3.index t a * S64x16x256.size a ≤ (i a).val
      ∧ (i a).val < win0_3.index t a * S64x16x256.size a + S64x16x256.size a := by
  show i ∈ ((View.whole main_v4).slice (win0_3.rect t)).set ↔ _
  rw [View.set_slice_whole, Rect.mem_set_unit]
  exact Iff.rfl

/-- THE BLOCKS COVER THE ARRAY: entry (ρ, γ, β) lies in the block of the point with region block ρ / 64 and batch
    block β / 256. -/
theorem cover (i : S512x16x512.Idx) :
    ∃ t : Fin cfg0.N, (cfg0.win 3).flush t = true ∧ i ∈ ((cfg0.win 3).blk t).view.set := by
  have hi0 : (i 0).val < 512 := (i 0).isLt
  have hi1 : (i 1).val < 16 := (i 1).isLt
  have hi2 : (i 2).val < 512 := (i 2).isLt
  obtain ⟨t, ht⟩ := idx_onto ⟨(i 0).val / 64, by omega⟩ ⟨(i 2).val / 256, by omega⟩
  have q0 : win0_3.index t (0 : Fin 3) = (i 0).val / 64 := congrFun ht 0
  have q1 : win0_3.index t (1 : Fin 3) = 0 := congrFun ht 1
  have q2 : win0_3.index t (2 : Fin 3) = (i 2).val / 256 := congrFun ht 2
  refine ⟨t, flush0_3 t, ?_⟩
  rw [mem_blk]
  intro a
  match a with
  | ⟨0, _⟩ => show win0_3.index t (0 : Fin 3) * 64 ≤ (i 0).val ∧ (i 0).val < win0_3.index t (0 : Fin 3) * 64 + 64; omega
  | ⟨1, _⟩ => show win0_3.index t (1 : Fin 3) * 16 ≤ (i 1).val ∧ (i 1).val < win0_3.index t (1 : Fin 3) * 16 + 16; omega
  | ⟨2, _⟩ => show win0_3.index t (2 : Fin 3) * 256 ≤ (i 2).val ∧ (i 2).val < win0_3.index t (2 : Fin 3) * 256 + 256; omega

/-- THE OUTPUT ARRAY after the region is `GK`: every block written is `GK`'s, and the blocks cover the array. -/
theorem final (c : Dev nD) : (dats m 0 c).arrAt 3 cfg0.N = GK m c :=
  (dats m 0 c).arrAt_eq_of_cover 3 (GK m c) (fun t _ => flushed_eq m c t) cover

end Cert.KernelIdeal.Blocks

end
-- ==== Proof.HostPre.lean ====
import proofs.«422789_j77120432767510_3_alg».proof.Proof.Gen.KernelIdeal.Frame
import proofs.«422789_j77120432767510_3_alg».proof.Proof.Spec
import Idealize.ShloMosaic.Lib.StableHlo.Run
import Idealize.ShloMosaic.Lib.ValueIdx
import Idealize.ShloMosaic.Lib.Pipeline.Value

noncomputable section

namespace Cert.KernelIdeal.HostPre

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## Small facts the read of the take rests on -/

/-- A left fold by `and` from the bit 1 over bits that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi (1#1 : BitVec 1) 1#1 = 1#1 := by decide
    rw [List.foldl_cons, ha, h11]
    exact foldl_andi_one f l fun n hn => h n (List.mem_cons_of_mem _ hn)

/-- An and-reduction over the unit axis of a `[25088, 1]` array of bits, from an initial bit 1, is 1 at row `n` as soon
    as the one element of that row is 1: the only index that reduces into `n` is `(n, 0)`. -/
private theorem reduce_andi_row (x : IVec S25088x1 1) (init : IVec S_ 1) (h : S25088x1.ReducesTo [1] S25088)
    (hu : 0 < S_.numel) (n : Fin 25088) (hi : init (Shape.Idx.first hu) = 1#1) (hx : x (ix2 n (0 : Fin 1)) = 1#1) :
    Host.reduce IntOp.andi x init h hu (ix1 n) = 1#1 := by
  rw [Host.reduce_eq_foldl, hi]
  refine foldl_andi_one x _ fun i hmem => ?_
  have hd : h.drop i = ix1 n := of_decide_eq_true (List.mem_filter.1 hmem).2
  have h0 : ((h.drop i) 0 : ℕ) = (i 0 : ℕ) := Shape.ReducesTo.drop_apply_val_of_eq h i 0 0
  rw [hd] at h0
  have h1 : (i 1).val < 1 := idx2_lt1 i
  have e : i = ix2 n (0 : Fin 1) := by
    funext a
    match a with
    | ⟨0, _⟩ => exact Fin.ext h0.symm
    | ⟨1, _⟩ => exact Fin.ext (by show (i 1).val = 0; omega)
  rw [e]; exact hx

/-- The take's dimension numbers, spelt out: row `n` of the result is the operand's row named by start index `n`,
    whole (offset axis 1 of the result runs over operand axis 1, operand axis 0 is collapsed). -/
private abbrev takeRows (wf : GatherDims.WF S784x512 S25088x1 S25088x512 [1] [0] [] [0] [] 1 ![1, 512]) :
    GatherDims S784x512 S25088x1 S25088x512 where
  offsetDims := [1]
  collapsedSliceDims := [0]
  operandBatchingDims := []
  startIndicesBatchingDims := []
  startIndexMap := [0]
  indexVectorDim := 1
  sliceSizes := ![1, 512]
  wf := wf

/-- THE GATHER READ AT `(n, b)`: the operand at the row the start index `idx[n, 0]` names — read signed and held inside
    `[0, 783]` — and column `b`. -/
private theorem gather_rows_apply {α : Type} (wf : GatherDims.WF S784x512 S25088x1 S25088x512 [1] [0] [] [0] [] 1 ![1, 512])
    (v : S784x512.Idx → α) (idx : IVec S25088x1 32) (n : Fin 25088) (b : Fin 512) (w : BitVec 32)
    (hw : idx (ix2 n (0 : Fin 1)) = w) :
    Host.gather (takeRows wf) v idx (ix2 n b) = v (ix2 (⟨min w.toInt.toNat 783, by omega⟩ : Fin 784) b) := by
  subst hw
  unfold Host.gather
  congr 1
  funext a
  refine Fin.ext ?_
  match a with
  | ⟨0, _⟩ =>
    show (takeRows wf).start (ix2 n b) idx 0 + (takeRows wf).batchCoord (ix2 n b) 0 + (takeRows wf).offCoord (ix2 n b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows wf).startIndexMap from List.mem_singleton.mpr rfl)]
    have hsi : (takeRows wf).siIdx (ix2 n b) ⟨List.idxOf (0 : Fin 2) (takeRows wf).startIndexMap,
        List.idxOf_lt_length_iff.2 (List.mem_singleton.mpr rfl)⟩ = ix2 n (0 : Fin 1) := by
      funext c; refine Fin.ext ?_
      match c with
      | ⟨0, _⟩ => rfl
      | ⟨1, _⟩ => rfl
    rw [hsi]
    rfl
  | ⟨1, _⟩ =>
    show (takeRows wf).start (ix2 n b) idx 1 + (takeRows wf).batchCoord (ix2 n b) 1 + (takeRows wf).offCoord (ix2 n b) 1 = b.val
    rw [GatherDims.batchCoord_eq_zero _ _ _ List.not_mem_nil]
    unfold GatherDims.start
    rw [dif_neg (show (1 : Fin 2) ∉ ([0] : List (Fin 2)) by decide)]
    unfold GatherDims.offCoord
    rw [dif_pos (show (1 : Fin 2) ∈ S784x512.kept ([0] ++ []) by decide)]
    show 0 + 0 + b.val = b.val
    omega

/-! ## The program's values before the region, as terms over the two arguments -/

/-- The flat column words wrapped once: `select (w <s 0) (w + 784) w` over the mask read as one row of 25088 words. -/
private def wflat (mask : IVec S512x49 32) : IVec S25088 32 :=
  select (cmpi .slt (shapeCast S25088 mask shapeCasts_S512x49_S25088) (broadcastInDim S25088 ![] bcast_S_S25088 (constantI S_ 32 0#32)))
    (addi (shapeCast S25088 mask shapeCasts_S512x49_S25088) (broadcastInDim S25088 ![] bcast_S_S25088 (constantI S_ 32 784#32)))
    (shapeCast S25088 mask shapeCasts_S512x49_S25088)

/-- The start indices of the take: the wrapped words as a `[25088, 1]` array. -/
private def idxv (mask : IVec S512x49 32) : IVec S25088x1 32 :=
  broadcastInDim S25088x1 ![0] bcast_S25088_S25088x1_0 (wflat mask)

/-- The range test of the take, row by row: "the start index is at least 0 and at most 783", and-reduced over the unit axis. -/
private def okv (mask : IVec S512x49 32) : IVec S25088 1 :=
  Host.reduce IntOp.andi
    (andi (cmpi .sge (idxv mask) (broadcastInDim S25088x1 ![] bcast_S_S25088x1 (constantI S_ 32 0#32)))
      (cmpi .sle (idxv mask) (broadcastInDim S25088x1 ![0, 1] bcast_S1x1_S25088x1_0_1
        (broadcastInDim S1x1 ![1] bcast_S1_S1x1_1 (constantI S1 32 783#32)))))
    (constantI S_ 1 1#1) reducesTo_S25088x1_S25088_d1 h_S_

/-- The take: the gathered rows where the range test passes, the fill value elsewhere. -/
private def taken (x : S512x784.Idx → EReal) (mask : IVec S512x49 32) : S25088x512.Idx → EReal :=
  select (broadcastInDim S25088x512 ![0] bcast_S25088_S25088x512_0 (okv mask))
    (Host.gather gather_S784x512_S25088x1_S25088x512_1_0_n_n_0_1_1512
      (transpose S784x512 [1, 0] x transposes_S512x784_S784x512_1_0) (idxv mask))
    (broadcastInDim S25088x512 ![] bcast_S_S25088x512 (constant (F := Ideal) S_ .f32 0x7FC00000#32))

/-- The wrapped word of flat row `n = 49 r + d` is the wrap of the mask word `mask[r, d]`. -/
private theorem wflat_apply (mask : IVec S512x49 32) (r : Fin 512) (d : Fin 49) (n : Fin 25088) (hn : n.val = r.val * 49 + d.val) :
    wflat mask (ix1 n) = Cert.Gauss.wrap (mask (ix2 r d)) := by
  have e : shapeCast S25088 mask shapeCasts_S512x49_S25088 (ix1 n) = mask (ix2 r d) :=
    shapeCast_apply mask _ (ix1 n) (ix2 r d) (by
      rw [Shape.rowMajor_val_two, Shape.rowMajor_val_one]
      show r.val * 49 + d.val = n.val
      omega)
  show Scalar.select (IntOp.cmpi .slt (shapeCast S25088 mask shapeCasts_S512x49_S25088 (ix1 n)) 0#32)
      (IntOp.addi (shapeCast S25088 mask shapeCasts_S512x49_S25088 (ix1 n)) 784#32)
      (shapeCast S25088 mask shapeCasts_S512x49_S25088 (ix1 n)) = _
  rw [e]
  rfl

/-- So is the start index of row `n`. -/
private theorem idxv_apply (mask : IVec S512x49 32) (r : Fin 512) (d : Fin 49) (n : Fin 25088) (hn : n.val = r.val * 49 + d.val) :
    idxv mask (ix2 n (0 : Fin 1)) = Cert.Gauss.wrap (mask (ix2 r d)) := by
  refine (broadcastInDim_apply _ _ (wflat mask) (ix2 n (0 : Fin 1)) (ix1 n) fun a => ?_).trans (wflat_apply mask r d n hn)
  match a with
  | ⟨0, _⟩ => rfl

/-- On an admitted mask word the range test of its row passes. -/
private theorem okv_apply (mask : IVec S512x49 32) (r : Fin 512) (d : Fin 49) (n : Fin 25088) (hn : n.val = r.val * 49 + d.val)
    (hw : Cert.Gauss.InRange (mask (ix2 r d))) : okv mask (ix1 n) = 1#1 := by
  refine reduce_andi_row _ _ _ _ n rfl ?_
  show IntOp.andi (IntOp.cmpi .sge (idxv mask (ix2 n (0 : Fin 1))) 0#32) (IntOp.cmpi .sle (idxv mask (ix2 n (0 : Fin 1))) 783#32) = 1#1
  rw [idxv_apply mask r d n hn, Cert.Gauss.wrap_sge hw, Cert.Gauss.wrap_sle hw]
  decide

/-- THE TAKE READ AT `(n, b)`, `n = 49 r + d`, on an admitted mask word: the input at row `b` and the column the word reads. -/
private theorem taken_apply (x : S512x784.Idx → EReal) (mask : IVec S512x49 32) (r : Fin 512) (d : Fin 49) (n : Fin 25088)
    (hn : n.val = r.val * 49 + d.val) (hw : Cert.Gauss.InRange (mask (ix2 r d))) (b : Fin 512) :
    taken x mask (ix2 n b) = x (ix2 b (Cert.Gauss.col (mask (ix2 r d)))) := by
  have hok : broadcastInDim S25088x512 ![0] bcast_S25088_S25088x512_0 (okv mask) (ix2 n b) = 1#1 :=
    (broadcastInDim_apply _ _ (okv mask) (ix2 n b) (ix1 n) fun a => match a with | ⟨0, _⟩ => rfl).trans
      (okv_apply mask r d n hn hw)
  unfold taken
  rw [select_apply, hok, select_one]
  refine (gather_rows_apply gather_S784x512_S25088x1_S25088x512_1_0_n_n_0_1_1512_wf _ (idxv mask) n b _ (idxv_apply mask r d n hn)).trans ?_
  exact transpose_apply _ x _ _ _ fun c => match c with | ⟨0, _⟩ => rfl | ⟨1, _⟩ => rfl

/-- The feature array the region finds is the take, read as `[512, 49, 512]`. -/
private theorem V_main_v3 (c : Dev nD) :
    (V m c main_v3 : S512x49x512.Idx → EReal)
      = shapeCast S512x49x512 (taken (m ((c : Thread nD τ).loc main_arg0)) (m ((c : Thread nD τ).loc main_arg1)))
          shapeCasts_S25088x512_S512x49x512 := by
  dsimp only [Gen.V, Gen.V0]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_eq]
  rfl

/-- THE FEATURE ARRAY THE REGION FINDS, entry by entry: at (region r, feature d, batch row b) it is the input `x` at
    row `b` and the column the mask word `mask[r, d]` reads — for admitted mask words, on which the range test of the
    take passes, so the fill value is never selected. -/
theorem xg_apply (c : Dev nD)
    (hm : ∀ (r : Fin 512) (d : Fin 49), Cert.Gauss.InRange ((m ((c : Thread nD τ).loc main_arg1) : IVec S512x49 32) (ix2 r d)))
    (r : Fin 512) (d : Fin 49) (b : Fin 512) :
    (V m c main_v3 : S512x49x512.Idx → EReal) (ix3 r d b)
      = (m ((c : Thread nD τ).loc main_arg0) : S512x784.Idx → EReal)
          (ix2 b (Cert.Gauss.col ((m ((c : Thread nD τ).loc main_arg1) : IVec S512x49 32) (ix2 r d)))) := by
  have hlt : r.val * 49 + d.val < 25088 := by have := r.isLt; have := d.isLt; omega
  rw [V_main_v3 m c]
  refine (shapeCast_apply _ _ (ix3 r d b) (ix2 (⟨r.val * 49 + d.val, hlt⟩ : Fin 25088) b) ?_).trans
    (taken_apply _ _ r d ⟨r.val * 49 + d.val, hlt⟩ rfl (hm r d) b)
  rw [Shape.rowMajor_val_three, Shape.rowMajor_val_two]
  show (r.val * 49 + d.val) * 512 + b.val = (r.val * 49 + d.val) * 512 + b.val
  rfl

end Cert.KernelIdeal.HostPre

end
-- ==== Proof.KValue.lean ====
import proofs.«422789_j77120432767510_3_alg».proof.Proof.Gen.KernelIdeal.Frame
import proofs.«422789_j77120432767510_3_alg».proof.Proof.Blocks
import proofs.«422789_j77120432767510_3_alg».proof.Proof.HostPre
import Idealize.ShloMosaic.Lib.StableHlo.Run
import Idealize.ShloMosaic.Lib.Pipeline.Value
import Idealize.ShloMosaic.Lib.ValueIdx

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The program's result buffer after the one host operation that follows the region: the region's output array
    [region, channel, batch row] transposed to [batch row, region, channel]. -/
theorem tail_eq (c : Dev nD) :
    (Pipeline.afterTail₀ cfgs (dats m) 0 (V0 m) [hostOps1] c main_v5 : S512x512x16.Idx → EReal)
      = transpose S512x512x16 [2, 0, 1] ((dats m 0 c).arrAt 3 cfg0.N : S512x16x512.Idx → EReal)
          transposes_S512x16x512_S512x512x16_2_0_1 := by
  unfold Pipeline.afterTail₀
  show StableHlo.after hostOps1 _ (Proc.devRef .tc main_v5) = _
  after_results
  exact congrArg (fun a : S512x16x512.Idx → EReal => transpose S512x512x16 [2, 0, 1] a transposes_S512x16x512_S512x512x16_2_0_1)
    (Pipeline.withArrays_arr spec0 launch0.win.arr_inj c _ _ 3)

/-- The launch contents of the four arguments, at their literal types. -/
abbrev argX (c : Dev nD) : S512x784.Idx → EReal := m ((c : Thread nD τ).loc main_arg0)
abbrev argMask (c : Dev nD) : IVec S512x49 32 := m ((c : Thread nD τ).loc main_arg1)
abbrev argLoc (c : Dev nD) : S512x16x49.Idx → EReal := m ((c : Thread nD τ).loc main_arg2)
abbrev argScale (c : Dev nD) : S512x16x49.Idx → EReal := m ((c : Thread nD τ).loc main_arg3)

/-- The output array's entry (r, cc, b) is the specification's entry (b, r, cc), for admitted mask words: the
    per-feature term's two groupings agree by associativity; the feature array's entry (r, d, b) is `x` at row `b`
    and the column `mask[r, d]` reads; the means and deviations reach the region as launched. -/
theorem GK_apply (c : Dev nD)
    (hm : ∀ (r : Fin 512) (d : Fin 49), Cert.Gauss.InRange (argMask m c (ix2 r d)))
    (b r : Fin 512) (cc : Fin 16) :
    Cert.KernelIdeal.Blocks.GK m c (ix3 r cc b)
      = Cert.Gauss.G (argX m c) (argMask m c) (argLoc m c) (argScale m c) b r cc := by
  unfold Cert.KernelIdeal.Blocks.GK Cert.Gauss.G
  refine Finset.sum_congr rfl fun d _ => ?_
  rw [Cert.Gauss.termK_eq_termR]
  have hx : Cert.KernelIdeal.Blocks.feat m c (ix3 r d b) = argX m c (ix2 b (Cert.Gauss.col (argMask m c (ix2 r d)))) :=
    Cert.KernelIdeal.HostPre.xg_apply m c hm r d b
  have hl : Cert.KernelIdeal.Blocks.mean m c = argLoc m c := V_main_arg2 m c
  have hs : Cert.KernelIdeal.Blocks.dev m c = argScale m c := V_main_arg3 m c
  show Cert.Gauss.termR (Cert.KernelIdeal.Blocks.feat m c (ix3 r d b)) (Cert.KernelIdeal.Blocks.mean m c (ix3 r cc d))
      (Cert.KernelIdeal.Blocks.dev m c (ix3 r cc d)) = _
  rw [hx, hl, hs]

/-- THE KERNEL PROGRAM'S RESULT, entry by entry, is the specification — for admitted mask words: the transposed
    entry (b, r, cc) is the output array's (r, cc, b). -/
theorem result_apply (c : Dev nD)
    (hm : ∀ (r : Fin 512) (d : Fin 49), Cert.Gauss.InRange (argMask m c (ix2 r d)))
    (b r : Fin 512) (cc : Fin 16) :
    (Pipeline.afterTail₀ cfgs (dats m) 0 (V0 m) [hostOps1] c main_v5 : S512x512x16.Idx → EReal) (ix3 b r cc)
      = Cert.Gauss.G (argX m c) (argMask m c) (argLoc m c) (argScale m c) b r cc := by
  rw [tail_eq]
  refine (transpose_apply [2, 0, 1] ((dats m 0 c).arrAt 3 cfg0.N : S512x16x512.Idx → EReal)
    transposes_S512x16x512_S512x512x16_2_0_1 (ix3 b r cc) (ix3 r cc b) ?_).trans ?_
  · intro a
    match a with
    | ⟨0, _⟩ => rfl
    | ⟨1, _⟩ => rfl
    | ⟨2, _⟩ => rfl
  exact (congrFun (Cert.KernelIdeal.Blocks.final m c) (ix3 r cc b)).trans (GK_apply m c hm b r cc)

/-- THE KERNEL PROGRAM'S RUN with its result named: every weakly fair execution ends with the result buffer at the
    specification and the four arguments as launched — when every mask word is admitted. -/
theorem run (hm : ∀ (c : Dev nD) (r : Fin 512) (d : Fin 49), Cert.Gauss.InRange (argMask m c (ix2 r d))) :
    θ_run defs (onTc (τ := τ) (main (F := Ideal))) ⟨m, fun _ => 0, ρ⟩ fun r => ∀ c : Dev nD,
      r.2.mem ((c : Thread nD τ).loc main_v5)
          = (fun i : S512x512x16.Idx => Cert.Gauss.G (argX m c) (argMask m c) (argLoc m c) (argScale m c) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v5 (Pipeline.mem_restRefs_of main_v5 (by decide) (by decide))).trans (funext fun i => by
        obtain ⟨b, r, cc, rfl⟩ : ∃ (b r : Fin 512) (cc : Fin 16), i = ix3 b r cc := ⟨i 0, i 1, i 2, eq_ix3 i⟩
        exact result_apply m c (hm c) b r cc),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.KValue

end
-- ==== Proof.lean ====
/-
  A Gaussian log-density layer summed over each region's features: for a batch row `b`, a region `r` and a channel `c`,
  `∑_d ( -½ z² - log s - ½ log 2π )` with `z = (x[b, mask[r, d]] - loc[r, c, d]) / scale[r, c, d]`.

  The kernel program transposes `x`, takes the 512·49 mask columns (a take that fills with a non-number where the
  wrapped index leaves `[0, 783]`), and a tiled kernel — 8 region blocks × 2 batch blocks, 16 channels unrolled —
  forms the term grouped as `q + ((0 - log s) - h)` and sums it over the feature axis; a transpose puts the batch row
  first. The reference gathers the columns directly (wrapping negative indices), broadcasts to
  [batch, region, channel, feature], groups the term as `(q - log s) - h` and sums over the last axis.

  On the extended reals the two groupings are one value by associativity of addition (Spec.lean), and a sum over 49
  features does not depend on its order; the "differs from itself" guard both programs carry never fires. The two
  gathers read the same column exactly when the wrapped index is inside `[0, 783]`, which is what the precondition's
  last conjunct `-784 ≤ mask < 784` gives (PreMask.lean): outside it the reference's own indexing is out of range.

  Modules: Spec (the mathematics), PreMask (the precondition read at the mask), RefValue (the reference's result is the
  specification), HostPre (the feature array the region finds), Chan and Body (one channel, and the output block entry
  by entry), Blocks (the output array from its blocks), KValue (the transpose after the region and the kernel program's
  run with its result named). Below: the three frames, the empty ledger, and the two runs side by side.
-/
import proofs.«422789_j77120432767510_3_alg».proof.Defs
import proofs.«422789_j77120432767510_3_alg».proof.Proof.Gen.Kernel
import proofs.«422789_j77120432767510_3_alg».proof.Proof.Gen.Kernel.Skeleton
import proofs.«422789_j77120432767510_3_alg».proof.Proof.Gen.Kernel.Launch
import proofs.«422789_j77120432767510_3_alg».proof.Proof.Gen.Kernel.Points
import proofs.«422789_j77120432767510_3_alg».proof.Proof.Gen.Kernel.Frame
import proofs.«422789_j77120432767510_3_alg».proof.Proof.Gen.KernelIdeal
import proofs.«422789_j77120432767510_3_alg».proof.Proof.Gen.KernelIdeal.Skeleton
import proofs.«422789_j77120432767510_3_alg».proof.Proof.Gen.KernelIdeal.Launch
import proofs.«422789_j77120432767510_3_alg».proof.Proof.Gen.KernelIdeal.Points
import proofs.«422789_j77120432767510_3_alg».proof.Proof.Gen.KernelIdeal.Frame
import proofs.«422789_j77120432767510_3_alg».proof.Proof.Gen.ReferenceIdeal
import proofs.«422789_j77120432767510_3_alg».proof.Proof.Gen.ReferenceIdeal.Run
import proofs.«422789_j77120432767510_3_alg».proof.Proof.Gen.ReferenceIdeal.Read
import proofs.«422789_j77120432767510_3_alg».proof.Proof.Gen.Pre_finite_inputs
import proofs.«422789_j77120432767510_3_alg».proof.Proof.PreMask
import proofs.«422789_j77120432767510_3_alg».proof.Proof.RefValue
import proofs.«422789_j77120432767510_3_alg».proof.Proof.KValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and keeps its arguments. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, under the precondition, both programs end with the specification's
    array: the kernel program by its run (the precondition read at the mask admits every mask word), the reference by
    its run read one operation at a time. -/
theorem algebraic : Cert.algebraic_KernelIdeal_ReferenceIdeal := by
  intro m ρ m' ρ' hpre hagree
  have hm : ∀ (c : Dev Cert.KernelIdeal.nD) (r : Fin 512) (d : Fin 49),
      Cert.Gauss.InRange (Cert.KernelIdeal.KValue.argMask m c (ix2 r d)) :=
    fun c r d => Cert.Pre_finite_inputs.Mask.mask_inrange _ _ _ _ (hpre c) r d
  refine ⟨_, Cert.KernelIdeal.KValue.run m ρ hm, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2]
  funext i
  obtain ⟨b, r, cc, rfl⟩ : ∃ (b r : Fin 512) (cc : Fin 16), i = ix3 b r cc := ⟨i 0, i 1, i 2, eq_ix3 i⟩
  exact Cert.ReferenceIdeal.RefValue.ref_apply _ _ _ _ b r cc

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
